-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_v47 : IVec S_ 1) (main_v49 : IVec S600000 1) (main_c_19 : IVec S_ 1) : IVec S_ 1 :=
  let main_v50 : IVec S_ 1 := (fun x v => Host.reduce IntOp.andi x v reducesTo_S600000_S_d0 h_S_) main_v49 main_c_19
  let main_v51 : IVec S_ 1 := andi main_v47 main_v50
  main_v51

def fn_part2 {F : FTy → Type} [FloatOps F] (main_arg7 : FVec F S128 .f32) (main_arg8 : FVec F S128 .f32) (main_arg9 : IVec S600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S600000 32 := broadcastInDim S600000 ![] bcast_S_S600000 main_c_16
  let main_v45 : IVec S600000 1 := cmpi .sge main_arg9 main_v44
  let main_c_17 : IVec S_ 1 := constantI S_ 1 1#1
  let main_v46 : IVec S_ 1 := (fun x v => Host.reduce IntOp.andi x v reducesTo_S600000_S_d0 h_S_) main_v45 main_c_17
  let main_v47 : IVec S_ 1 := andi main_v43 main_v46
  let main_c_18 : IVec S_ 32 := constantI S_ 32 50000#32
  let main_v48 : IVec S600000 32 := broadcastInDim S600000 ![] bcast_S_S600000 main_c_18
  let main_v49 : IVec S600000 1 := cmpi .slt main_arg9 main_v48
  let main_c_19 : IVec S_ 1 := constantI S_ 1 1#1
  fn_part3 (F := F) main_v47 main_v49 main_c_19

def fn_part1 {F : FTy → Type} [FloatOps F] (main_arg4 : FVec F S384x128 .f32) (main_arg5 : FVec F S384 .f32) (main_arg6 : FVec F S384 .f32) (main_arg7 : FVec F S128 .f32) (main_arg8 : FVec F S128 .f32) (main_arg9 : IVec S600000 32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S128x128 .f32) (main_arg2 : FVec F S128 .f32) (main_arg3 : FVec F S384x128 .f32) (main_arg4 : FVec F S384x128 .f32) (main_arg5 : FVec F S384 .f32) (main_arg6 : FVec F S384 .f32) (main_arg7 : FVec F S128 .f32) (main_arg8 : FVec F S128 .f32) (main_arg9 : IVec S600000 32) (main_arg10 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩
abbrev S2000x384 : Shape := ⟨2, ![2000, 384]⟩
abbrev S1x384 : Shape := ⟨2, ![1, 384]⟩
abbrev S2000 : Shape := ⟨1, ![2000]⟩

abbrev nBuf : Space → Nat
  | .hbm => 54
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S128, .f32⟩
  | .hbm, ⟨8, _⟩ => ⟨S128, .f32⟩
  | .hbm, ⟨9, _⟩ => ⟨S600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S1, .i32⟩
  | .hbm, ⟨20, _⟩ => ⟨S_, .i32⟩
  | .hbm, ⟨21, _⟩ => ⟨S600000x1, .i32⟩
  | .hbm, ⟨22, _⟩ => ⟨S600000x1, .i1⟩
  | .hbm, ⟨23, _⟩ => ⟨S1x1, .i32⟩
  | .hbm, ⟨24, _⟩ => ⟨S600000x1, .i32⟩
  | .hbm, ⟨25, _⟩ => ⟨S600000x1, .i1⟩
  | .hbm, ⟨26, _⟩ => ⟨S600000x1, .i1⟩
  | .hbm, ⟨27, _⟩ => ⟨S_, .i1⟩
  | .hbm, ⟨28, _⟩ => ⟨S600000, .i1⟩
  | .hbm, ⟨29, _⟩ => ⟨S600000x128, .f32⟩
  | .hbm, ⟨30, _⟩ => ⟨S600000x128, .i1⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S_, .i32⟩
  | .hbm, ⟨41, _⟩ => ⟨S50000, .i32⟩
  | .hbm, ⟨42, _⟩ => ⟨S600000x1, .i32⟩
  | .hbm, ⟨43, _⟩ => ⟨S50000, .i32⟩
  | .hbm, ⟨44, _⟩ => ⟨S50000, .f32⟩
  | .hbm, ⟨45, _⟩ => ⟨S50000x1, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S1x128, .f32⟩
  | .local _ .vmem, ⟨7, _⟩ => ⟨S128x128, .f32⟩
  | .local _ .vmem, ⟨8, _⟩ => ⟨S384x128, .f32⟩
  | .local _ .vmem, ⟨9, _⟩ => ⟨S384x128, .f32⟩
  | .local _ .vmem, ⟨10, _⟩ => ⟨S384, .f32⟩
  | .local _ .vmem, ⟨11, _⟩ => ⟨S384, .f32⟩
  | .local _ .vmem, ⟨12, _⟩ => ⟨S1x128, .f32⟩
  | .local _ .vmem, ⟨13, _⟩ => ⟨S128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_c_0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst_1 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  reducesTo_S50000x128_S128_d0 : S50000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S384x128_S384x128_0_0 : ∀ a, (![0, 0] : Fin 2 → Nat) a + S384x128.size a ≤ S384x128.size a
  h_S384x128 : 0 < S384x128.numel
  broadcasts_S2000x1_S2000x128 : S2000x1.Broadcasts S2000x128
  broadcasts_S1x128_S2000x128 : S1x128.Broadcasts S2000x128
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  reduces_S2000x128_S2000 : S2000x128.Reduces [1] S2000
  shapeCasts_S2000_S2000x1 : S2000.ShapeCasts S2000x1
  inb_S128_S128_0 : ∀ a, (![0] : Fin 1 → Nat) a + S128.size a ≤ S128.size a
  h_S128 : 0 < S128.numel
  shapeCasts_S128_S1x128 : S128.ShapeCasts S1x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_1_0_0_n_n_wf : DotDims.WF S2000x128 S128x128 S2000x128 [1] [1] [0] [0] [] []
  dot_S2000x128_S384x128_S2000x384_1_1_0_0_n_n_wf : DotDims.WF S2000x128 S384x128 S2000x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x128.size a ≤ S384x128.size a
  hwx0_6 : ∀ i : grid0.Coords, EltTy.bits .f32 = 32 ∨ (Rect.block (s := S384x128) S384x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384.size a ≤ S384.size a
  hwx0_7 : ∀ i : grid0.Coords, EltTy.bits .f32 = 32 ∨ (Rect.block (s := S384) S384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S384x128_S2000x384_1_1_0_0_n_n : DotDims S2000x128 S384x128 S2000x384 where
  lhsContracting := [1]
  rhsContracting := [1]
  lhsNonContracting := [0]
  rhsNonContracting := [0]
  lhsBatch := []
  rhsBatch := []
  wf := dot_S2000x128_S384x128_S2000x384_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S384x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128x384 : Shape := ⟨2, ![128, 384]⟩
abbrev S50000x384 : Shape := ⟨2, ![50000, 384]⟩
abbrev S1x384 : Shape := ⟨2, ![1, 384]⟩
abbrev S50000 : Shape := ⟨1, ![50000]⟩
abbrev S50000x1 : Shape := ⟨2, ![50000, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S128, .f32⟩
  | .hbm, ⟨8, _⟩ => ⟨S128, .f32⟩
  | .hbm, ⟨9, _⟩ => ⟨S600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S128x128, .f32⟩
  | .hbm, ⟨21, _⟩ => ⟨S600000x128, .f32⟩
  | .hbm, ⟨22, _⟩ => ⟨S1x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S128x384, .f32⟩
  | .hbm, ⟨38, _⟩ => ⟨S50000x384, .f32⟩
  | .hbm, ⟨39, _⟩ => ⟨S1x384, .f32⟩
  | .hbm, ⟨40, _⟩ => ⟨S50000x384, .f32⟩
  | .hbm, ⟨41, _⟩ => ⟨S50000x384, .f32⟩
  | .hbm, ⟨42, _⟩ => ⟨S128x384, .f32⟩
  | .hbm, ⟨43, _⟩ => ⟨S50000x384, .f32⟩
  | .hbm, ⟨44, _⟩ => ⟨S1x384, .f32⟩
  | .hbm, ⟨45, _⟩ => ⟨S50000x384, .f32⟩
  | .hbm, ⟨46, _⟩ => ⟨S50000x384, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S1x128_S50000x128_0_1 : S1x128.BroadcastsInDim S50000x128 (![0, 1] : Fin 2 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x128_S128x384_S50000x384_1_0_0_1_n_n_wf : DotDims.WF S50000x128 S128x384 S50000x384 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.LibTypedRef.lean ====
/-
  A typed reference's two transports are inverse.

  A typed reference `x` to a buffer of a tensor value of type `T` carries contents at `T` to contents of the buffer
  (`x.toBuf`) and back (`x.ofBuf`), each a transport along `x.ty_eq : x.ref.ty = T`. Going there and back is the
  identity, whatever the reference: replacing `T` by the buffer's type makes both transports the identity.
  A program that inlines a called function reads each of the callee's values through such a pair.
-/
import Idealize.ShloMosaic.Lib.StableHlo

namespace Cert.Lib.TypedRef

open Idealize.ShloMosaic

/-- Contents carried to a typed reference's buffer and back are the contents. -/
theorem ofBuf_toBuf {sig : RefSig} {T : BufTy} {Val : EltTy → Type} (x : StableHlo.TRef sig T) (v : T.Contents Val) :
    x.ofBuf (x.toBuf v) = v := by
  obtain ⟨r, hty, h1, h2⟩ := x
  subst hty
  rfl

/-- Contents of the buffer carried to the value's type and back are the contents. -/
theorem toBuf_ofBuf {sig : RefSig} {T : BufTy} {Val : EltTy → Type} (x : StableHlo.TRef sig T) (v : x.ref.ty.Contents Val) :
    x.toBuf (x.ofBuf v) = v := by
  obtain ⟨r, hty, h1, h2⟩ := x
  subst hty
  rfl

end Cert.Lib.TypedRef
-- ==== Proof.Spec.lean ====
/-
  One node's update, written as plain arithmetic on the extended reals.

  Both programs compute, for node n with feature row x = nodes[n] and aggregated message row
  M = messages[n]:
      msg   = M + mean                                    (mean = column mean of all node rows)
      gi    = msg · W_ihᵀ + b_ih ,   gh = x · W_hhᵀ + b_hh   (384 gate pre-activations each)
      r     = σ(gi[0:128] + gh[0:128]) ,  z = σ(gi[128:256] + gh[128:256])
      c     = tanh(gi[256:384] + r * gh[256:384])
      h'    = (1 - z) * c + z * x
      out   = γ * (h' - μ) * rsqrt(var + ε) + β + M ,     μ, var the mean and variance of h' over its 128 lanes.
  Nothing here depends on how a program tiles the nodes: a row of the output is a function of the same
  row of the inputs. The two programs differ only in how they obtain M; that is the other module's law.
-/
import Idealize.ShloMosaic.PureOps.Ideal
import Idealize.ShloMosaic.PureOps.Ideal.Laws
import Idealize.ShloMosaic.Lib.ValueIdx

noncomputable section

namespace Cert.GruLn

open Idealize.ShloMosaic Idealize.ShloMosaic.ValueIdx

/-! ## Arrays read by coordinates -/

/-- Row `p` of a rank-2 array, as a function of the column. -/
abbrev row {n k : Nat} (A : (⟨2, ![n, k]⟩ : Shape).Idx → EReal) (p : Fin n) : Fin k → EReal := fun q => A (ix2 p q)
/-- A rank-2 array as a function of (row, column). -/
abbrev mat {n k : Nat} (A : (⟨2, ![n, k]⟩ : Shape).Idx → EReal) : Fin n → Fin k → EReal := fun p q => A (ix2 p q)
/-- A rank-1 array as a function of the position. -/
abbrev vec {n : Nat} (b : (⟨1, ![n]⟩ : Shape).Idx → EReal) : Fin n → EReal := fun p => b (ix1 p)

/-! ## The literals both programs carry (the same words on both sides: never evaluated, except 1.0 where the
    reference spells the logistic function out) -/

abbrev one : EReal := Ideal.ofBits .f32 0x3F800000#32
abbrev c128 : EReal := Ideal.ofBits .f32 0x43000000#32
abbrev c50000 : EReal := Ideal.ofBits .f32 0x47435000#32
abbrev eps : EReal := Ideal.ofBits .f32 0x3727C5AC#32

/-- The word 0x3F800000 denotes the real number 1. -/
theorem one_eq : one = 1 := by
  show Ideal.ofBits .f32 0x3F800000#32 = 1
  simp [Ideal.ofBits, Ideal.ieee, -EReal.coe_mul]; norm_num

/-- The reference's spelling of the logistic function, 1 / (1 + exp (-v)) with the literal 1.0, is the kernel's one operation. -/
theorem logistic_spelled (v : EReal) : Ideal.div one (one + Ideal.exp (-v)) = Ideal.logistic v := by
  rw [one_eq]; rfl

/-! ## The three gate slices of the 384 pre-activations -/

/-- Gate lane `h` of the reset gate's slice [0, 128). -/
def gLo (h : Fin 128) : Fin 384 := ⟨h.val, by omega⟩
/-- Gate lane `h` of the update gate's slice [128, 256). -/
def gMid (h : Fin 128) : Fin 384 := ⟨h.val + 128, by omega⟩
/-- Gate lane `h` of the candidate's slice [256, 384). -/
def gHi (h : Fin 128) : Fin 384 := ⟨h.val + 256, by omega⟩

/-! ## One row -/

section Row

variable (mean : Fin 128 → EReal) (wih whh : Fin 384 → Fin 128 → EReal) (bih bhh : Fin 384 → EReal)
  (gam bet : Fin 128 → EReal) (x M : Fin 128 → EReal)

/-- The input-side pre-activation of gate lane `g`: (M + mean) · W_ih[g, :] + b_ih[g]. -/
def gi (g : Fin 384) : EReal := (∑ k : Fin 128, (M k + mean k) * wih g k) + bih g
/-- The hidden-side pre-activation of gate lane `g`: x · W_hh[g, :] + b_hh[g]. -/
def gh (g : Fin 384) : EReal := (∑ k : Fin 128, x k * whh g k) + bhh g
/-- The reset gate. -/
def rgate (h : Fin 128) : EReal := Ideal.logistic (gi mean wih bih M (gLo h) + gh whh bhh x (gLo h))
/-- The update gate. -/
def zgate (h : Fin 128) : EReal := Ideal.logistic (gi mean wih bih M (gMid h) + gh whh bhh x (gMid h))
/-- The candidate state. -/
def cand (h : Fin 128) : EReal :=
  Ideal.tanh (gi mean wih bih M (gHi h) + rgate mean wih whh bih bhh x M h * gh whh bhh x (gHi h))
/-- The new hidden state before normalisation. -/
def hnext (h : Fin 128) : EReal :=
  (one - zgate mean wih whh bih bhh x M h) * cand mean wih whh bih bhh x M h + zgate mean wih whh bih bhh x M h * x h
/-- Its mean over the 128 lanes. -/
def mu : EReal := Ideal.div (∑ h : Fin 128, hnext mean wih whh bih bhh x M h) c128
/-- Its variance over the 128 lanes. -/
def var : EReal :=
  Ideal.div (∑ h : Fin 128, (hnext mean wih whh bih bhh x M h - mu mean wih whh bih bhh x M)
    * (hnext mean wih whh bih bhh x M h - mu mean wih whh bih bhh x M)) c128
/-- The output row: the normalised state, scaled and shifted, plus the message residual. -/
def out (h : Fin 128) : EReal :=
  gam h * (hnext mean wih whh bih bhh x M h - mu mean wih whh bih bhh x M)
    * Ideal.rsqrt (var mean wih whh bih bhh x M + eps) + bet h + M h

end Row

/-- The column mean of the node features: the sum of column `k` over all 50000 nodes, divided by 50000.0. -/
def colMean (X : (⟨2, ![50000, 128]⟩ : Shape).Idx → EReal) : Fin 128 → EReal :=
  fun k => Ideal.div (∑ n : Fin 50000, X (ix2 n k)) c50000

end Cert.GruLn

end
-- ==== Proof.LibScatterRows.lean ====
/-
  Scatter-adding ROWS. jax's `segment_sum(rows, seg)` prints as a `stablehlo.scatter` with an `add` body whose scatter
  indices are the [E × 1] column of segment ids, whose operand's axis 0 is inserted and start-indexed and whose axis 1 is the
  one window axis. Update row `e` then lands on operand row `seg e` (read signed) when that is inside the operand, column
  by column, and nowhere otherwise. So at the ideal instance the scatter of rows reads, at (n, h), the operand there plus the
  sum over the update rows that land on `n` of their entry in column `h`; the integer scatter of ones over the same
  segment ids COUNTS those rows; and a linear map applied row by row before the sum may be applied once after it, the bias
  counted once per row.
-/
import Idealize.ShloMosaic.PureOps.Ideal
import Idealize.ShloMosaic.PureOps.Ideal.Laws
import Idealize.ShloMosaic.PureOps.Reduce
import Idealize.ShloMosaic.Lib.ValueIdx
import Idealize.ShloMosaic.Lib.StableHlo.Predicate

noncomputable section

namespace Cert.LibScatterRows

open Idealize.ShloMosaic Idealize.ShloMosaic.ValueIdx
open Idealize.ShloMosaic.StableHlo.Predicate (ixP)

/-- Where update row `e` lands: its segment id read signed, when that is a row of an operand with `N` rows. -/
def land {N E w : Nat} (idx : IVec ⟨2, ![E, 1]⟩ w) (e : Fin E) : Option (Fin N) :=
  if h : 0 ≤ (idx (ixP e)).toInt ∧ (idx (ixP e)).toInt < N then some ⟨(idx (ixP e)).toInt.toNat, by omega⟩ else none

/-- The update rows that land on operand row `n`. -/
def landing {N E w : Nat} (idx : IVec ⟨2, ![E, 1]⟩ w) (n : Fin N) : Finset (Fin E) :=
  Finset.univ.filter fun e => land (N := N) idx e = some n

/-- The four coordinate facts behind ROWS: on axis 0 the start is the segment id read signed and the window adds nothing; on
    axis 1 the start is 0 and the window coordinate is the column. -/
private theorem rows_start0 {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hivd : d.indexVectorDim = 1) (idx : IVec ⟨2, ![E, 1]⟩ w) (e : Fin E) (h : Fin H) :
    d.start (ix2 e h) idx 0 = (idx (ixP e)).toInt := by
  obtain ⟨uw, iw, sd, iv, wf⟩ := d
  simp only at huw hiw hsd hivd
  subst huw hiw hsd hivd
  unfold ScatterDims.start
  rw [dif_pos (by simp)]
  congr 2
  funext b
  match b with
  | ⟨0, _⟩ => rfl
  | ⟨1, _⟩ => rfl

private theorem rows_start1 {N E H w : Nat} (d : ScatterDims ⟨2, ![N, H]⟩ ⟨2, ![E, 1]⟩ ⟨2, ![E, H]⟩)
    (hsd : d.scatterDimsToOperandDims = [0]) (idx : IVec ⟨2, ![E, 1]⟩ w) (j : (⟨2, ![E, H]⟩ : Shape).Idx) :
    d.start j idx 1 = 0 := by
  unfold ScatterDims.start
  rw [dif_neg (by rw [hsd]; simp)]

private theorem rows_window0 {N E H : Nat} (d : ScatterDims ⟨2, ![N, H]⟩ ⟨2, ![E, 1]⟩ ⟨2, ![E, H]⟩)
    (hiw : d.insertedWindowDims = [0]) (j : (⟨2, ![E, H]⟩ : Shape).Idx) :
    d.window j 0 = 0 := by
  unfold ScatterDims.window
  rw [dif_neg (by rw [ScatterDims.sKept, hiw]; simp [Shape.kept, List.mem_filter])]

private theorem rows_window1 {N E H : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hivd : d.indexVectorDim = 1) (e : Fin E) (h : Fin H) :
    d.window (ix2 e h) 1 = h.val := by
  obtain ⟨uw, iw, sd, iv, wf⟩ := d
  simp only at huw hiw hsd hivd
  subst huw hiw hsd hivd
  rfl

/-- ROWS: entry (e, h) of the updates lands at (row `e` lands on, h). -/
theorem resultIdx_rows {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hivd : d.indexVectorDim = 1) (idx : IVec ⟨2, ![E, 1]⟩ w) (e : Fin E) (h : Fin H) :
    d.resultIdx? (ix2 e h) idx = (land (N := N) idx e).map fun n => ix2 n h := by
  have s0 := rows_start0 d huw hiw hsd hivd idx e h
  have s1 := rows_start1 d hsd idx (ix2 e h)
  have w0 := rows_window0 d hiw (ix2 e h)
  have w1 := rows_window1 d huw hiw hsd hivd e h
  unfold ScatterDims.resultIdx? land
  by_cases hc : 0 ≤ (idx (ixP e)).toInt ∧ (idx (ixP e)).toInt < N
  · have hall : ∀ a, 0 ≤ d.start (ix2 e h) idx a + d.window (ix2 e h) a ∧
        d.start (ix2 e h) idx a + d.window (ix2 e h) a < (⟨2, ![N, H]⟩ : Shape).size a := by
      intro a
      match a with
      | ⟨0, _⟩ =>
        show 0 ≤ d.start (ix2 e h) idx 0 + d.window (ix2 e h) 0 ∧ d.start (ix2 e h) idx 0 + d.window (ix2 e h) 0 < (N : ℤ)
        rw [s0, w0]; simpa using hc
      | ⟨1, _⟩ =>
        show 0 ≤ d.start (ix2 e h) idx 1 + d.window (ix2 e h) 1 ∧ d.start (ix2 e h) idx 1 + d.window (ix2 e h) 1 < (H : ℤ)
        rw [s1, w1]; have := h.isLt; omega
    rw [dif_pos hall, dif_pos hc, Option.map_some]
    congr 1
    funext a
    match a with
    | ⟨0, _⟩ =>
      apply Fin.ext
      show (d.start (ix2 e h) idx 0 + d.window (ix2 e h) 0).toNat = (idx (ixP e)).toInt.toNat
      rw [s0, w0]; simp
    | ⟨1, _⟩ =>
      apply Fin.ext
      show (d.start (ix2 e h) idx 1 + d.window (ix2 e h) 1).toNat = h.val
      rw [s1, w1]; simp
  · have hnot : ¬ ∀ a, 0 ≤ d.start (ix2 e h) idx a + d.window (ix2 e h) a ∧
        d.start (ix2 e h) idx a + d.window (ix2 e h) a < (⟨2, ![N, H]⟩ : Shape).size a := by
      intro hall
      have h0 := hall 0
      have h0' : 0 ≤ d.start (ix2 e h) idx 0 + d.window (ix2 e h) 0 ∧ d.start (ix2 e h) idx 0 + d.window (ix2 e h) 0 < (N : ℤ) := h0
      rw [s0, w0] at h0'
      exact hc (by simpa using h0')
    rw [dif_neg hnot, dif_neg hc, Option.map_none]

/-- The two coordinate facts behind SCALARS: on the one axis the start is the segment id read signed and the window adds
    nothing. -/
private theorem vec_start0 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) :
    d.start (ix1 e) idx 0 = (idx (ixP e)).toInt := by
  obtain ⟨uw, iw, sd, iv, wf⟩ := d
  simp only at huw hiw hsd hivd
  subst huw hiw hsd hivd
  unfold ScatterDims.start
  rw [dif_pos (by simp)]
  congr 2
  funext b
  match b with
  | ⟨0, _⟩ => rfl
  | ⟨1, _⟩ => rfl

private theorem vec_window0 {N E : Nat} (d : ScatterDims ⟨1, ![N]⟩ ⟨2, ![E, 1]⟩ ⟨1, ![E]⟩)
    (hiw : d.insertedWindowDims = [0]) (j : (⟨1, ![E]⟩ : Shape).Idx) :
    d.window j 0 = 0 := by
  unfold ScatterDims.window
  rw [dif_neg (by rw [ScatterDims.sKept, hiw]; simp [Shape.kept, List.mem_filter])]

/-- SCALARS: entry `e` of a vector of updates lands at the row `e` lands on. -/
theorem resultIdx_vec {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) :
    d.resultIdx? (ix1 e) idx = (land (N := N) idx e).map fun n => ix1 n := by
  have s0 := vec_start0 d huw hiw hsd hivd idx e
  have w0 := vec_window0 d hiw (ix1 e)
  unfold ScatterDims.resultIdx? land
  by_cases hc : 0 ≤ (idx (ixP e)).toInt ∧ (idx (ixP e)).toInt < N
  · have hall : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : ℤ)
        rw [s0, w0]; simpa using hc
    rw [dif_pos hall, dif_pos hc, Option.map_some]
    congr 1
    funext a
    match a with
    | ⟨0, _⟩ =>
      apply Fin.ext
      show (d.start (ix1 e) idx 0 + d.window (ix1 e) 0).toNat = (idx (ixP e)).toInt.toNat
      rw [s0, w0]; simp
  · have hnot : ¬ ∀ a, 0 ≤ d.start (ix1 e) idx a + d.window (ix1 e) a ∧
        d.start (ix1 e) idx a + d.window (ix1 e) a < (⟨1, ![N]⟩ : Shape).size a := by
      intro hall
      have h0' : 0 ≤ d.start (ix1 e) idx 0 + d.window (ix1 e) 0 ∧ d.start (ix1 e) idx 0 + d.window (ix1 e) 0 < (N : ℤ) := hall 0
      rw [s0, w0] at h0'
      exact hc (by simpa using h0')
    rw [dif_neg hnot, dif_neg hc, Option.map_none]

/-- An optional row mapped to the entry (row, b) is the entry (n, h) exactly when the row is `n` and the column is `h`. -/
private theorem map_ix2_eq_some {N H : Nat} (o : Option (Fin N)) (b h : Fin H) (n : Fin N) :
    (o.map fun m => ix2 m b) = some (ix2 n h) ↔ o = some n ∧ b = h := by
  cases o with
  | none => simp
  | some m =>
    simp only [Option.map_some, Option.some.injEq]
    constructor
    · intro hh
      exact ⟨congrFun hh 0, congrFun hh 1⟩
    · rintro ⟨rfl, rfl⟩; rfl

/-- An optional row mapped to the one-coordinate index is the index `n` exactly when the row is `n`. -/
private theorem map_ix1_eq_some {N : Nat} (o : Option (Fin N)) (n : Fin N) :
    (o.map fun m => ix1 m) = some (ix1 n) ↔ o = some n := by
  cases o with
  | none => simp
  | some m =>
    simp only [Option.map_some, Option.some.injEq]
    constructor
    · intro hh
      exact congrFun hh 0
    · rintro rfl; rfl

/-- The float scatter-add of rows, at the ideal instance, read at (n, h): the operand's entry plus the sum, over the update
    rows landing on `n`, of their entry in column `h`. -/
theorem scatterAdd_rows_apply {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hivd : d.indexVectorDim = 1) (x : (⟨2, ![N, H]⟩ : Shape).Idx → EReal) (idx : IVec ⟨2, ![E, 1]⟩ w)
    (upd : (⟨2, ![E, H]⟩ : Shape).Idx → EReal) (n : Fin N) (h : Fin H) :
    Ideal.hostScatterAdd d x idx upd (ix2 n h) = x (ix2 n h) + ∑ e ∈ landing idx n, upd (ix2 e h) := by
  unfold Ideal.hostScatterAdd
  congr 1
  unfold landing
  refine Finset.sum_nbij' (fun j => (j 0 : Fin E)) (fun e => ix2 e h) ?_ ?_ ?_ ?_ ?_
  · intro j hj
    obtain ⟨a, b, rfl⟩ : ∃ (a : Fin E) (b : Fin H), j = ix2 a b := ⟨j 0, j 1, eq_ix2 j⟩
    rw [Finset.mem_filter, resultIdx_rows d huw hiw hsd hivd, map_ix2_eq_some] at hj
    exact Finset.mem_filter.2 ⟨Finset.mem_univ _, hj.2.1⟩
  · intro e he
    rw [Finset.mem_filter] at he
    rw [Finset.mem_filter, resultIdx_rows d huw hiw hsd hivd, map_ix2_eq_some]
    exact ⟨Finset.mem_univ _, he.2, rfl⟩
  · intro j hj
    obtain ⟨a, b, rfl⟩ : ∃ (a : Fin E) (b : Fin H), j = ix2 a b := ⟨j 0, j 1, eq_ix2 j⟩
    rw [Finset.mem_filter, resultIdx_rows d huw hiw hsd hivd, map_ix2_eq_some] at hj
    show ix2 a h = ix2 a b
    rw [hj.2.2]
  · intro e _
    rfl
  · intro j hj
    obtain ⟨a, b, rfl⟩ : ∃ (a : Fin E) (b : Fin H), j = ix2 a b := ⟨j 0, j 1, eq_ix2 j⟩
    rw [Finset.mem_filter, resultIdx_rows d huw hiw hsd hivd, map_ix2_eq_some] at hj
    show upd (ix2 a b) = upd (ix2 a h)
    rw [hj.2.2]

/-- A left fold whose step adds 1 at the entries a predicate marks (and leaves the others) ends, at every entry, at the
    start plus the number of list members marked for that entry, as a 32-bit word. -/
private theorem foldl_count {ι κ : Type} (p : ι → κ → Prop) [∀ m i, Decidable (p m i)]
    (step : (κ → BitVec 32) → ι → (κ → BitVec 32))
    (hstep : ∀ r m i, step r m i = r i + if p m i then 1#32 else 0#32) (l : List ι) (r : κ → BitVec 32) (i : κ) :
    l.foldl step r i = r i + BitVec.ofNat 32 (l.countP fun m => p m i) := by
  induction l generalizing r with
  | nil => simp
  | cons m l ih =>
    rw [List.foldl_cons, ih, hstep, List.countP_cons]
    by_cases hp : p m i
    · simp only [hp, if_true, decide_true, BitVec.ofNat_add]
      ac_rfl
    · simp [hp]

/-- Counting the members of the full range that satisfy a predicate is the size of the filtered universe. -/
private theorem countP_finRange {m : Nat} (p : Fin m → Prop) [DecidablePred p] :
    (List.finRange m).countP (fun a => p a) = (Finset.univ.filter p).card := by
  rw [List.countP_eq_length_filter]
  rfl

/-- The integer scatter-add of ones into zeros COUNTS: at row `n` it is the number of update rows landing on `n` (fewer than
    2³¹ of them, so the 32-bit sum does not wrap and reads the same signed). -/
theorem scatter_count {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (hE : E < 2 ^ 31) (x : IVec ⟨1, ![N]⟩ 32) (hx : ∀ i, x i = 0#32)
    (idx : IVec ⟨2, ![E, 1]⟩ w) (upd : IVec ⟨1, ![E]⟩ 32) (hu : ∀ j, upd j = 1#32) (n : Fin N) :
    (Host.scatter d IntOp.addi x idx upd (ix1 n)).toInt = ((landing idx n).card : ℤ) := by
  -- the fold, entry by entry: the start plus the count of the update positions whose result index is that entry
  have hfold : Host.scatter d IntOp.addi x idx upd (ix1 n) = x (ix1 n) + BitVec.ofNat 32
      ((List.finRange (⟨1, ![E]⟩ : Shape).numel).countP fun m =>
        d.resultIdx? ((⟨1, ![E]⟩ : Shape).rowMajor.symm m) idx = some (ix1 n)) := by
    unfold Host.scatter
    refine foldl_count (fun m i => d.resultIdx? ((⟨1, ![E]⟩ : Shape).rowMajor.symm m) idx = some i) _ ?_ _ _ _
    intro r m i
    rcases hres : d.resultIdx? ((⟨1, ![E]⟩ : Shape).rowMajor.symm m) idx with _ | i0
    · simp
    · by_cases hi : i = i0
      · subst hi
        simp [IntOp.addi, hu]
      · have hi' : ¬ i0 = i := fun hh => hi hh.symm
        simp [hi, hi']
  -- the update positions whose result index is row n are, through the row-major numbering, the rows landing on n
  have hcard : (Finset.univ.filter fun m : Fin (⟨1, ![E]⟩ : Shape).numel =>
      d.resultIdx? ((⟨1, ![E]⟩ : Shape).rowMajor.symm m) idx = some (ix1 n)).card = (landing idx n).card := by
    unfold landing
    refine Finset.card_nbij' (fun m => (((⟨1, ![E]⟩ : Shape).rowMajor.symm m) 0 : Fin E))
      (fun e => (⟨1, ![E]⟩ : Shape).rowMajor (ix1 e)) ?_ ?_ ?_ ?_
    · intro m hm
      obtain ⟨a, ha⟩ : ∃ a : Fin E, (⟨1, ![E]⟩ : Shape).rowMajor.symm m = ix1 a := ⟨_, eq_ix1 _⟩
      have hm' := (Finset.mem_filter.1 hm).2
      rw [ha, resultIdx_vec d huw hiw hsd hivd, map_ix1_eq_some] at hm'
      have h0 : (((⟨1, ![E]⟩ : Shape).rowMajor.symm m) 0 : Fin E) = a := congrFun ha 0
      exact Finset.mem_filter.2 ⟨Finset.mem_univ _, (congrArg (fun z => land (N := N) idx z = some n) h0).mpr hm'⟩
    · intro e he
      have he' := (Finset.mem_filter.1 he).2
      refine Finset.mem_filter.2 ⟨Finset.mem_univ _, ?_⟩
      rw [Equiv.symm_apply_apply, resultIdx_vec d huw hiw hsd hivd, map_ix1_eq_some]
      exact he'
    · intro m _
      have h1 := eq_ix1 ((⟨1, ![E]⟩ : Shape).rowMajor.symm m)
      exact (congrArg (⟨1, ![E]⟩ : Shape).rowMajor h1.symm).trans (Equiv.apply_symm_apply _ _)
    · intro e _
      show ((⟨1, ![E]⟩ : Shape).rowMajor.symm ((⟨1, ![E]⟩ : Shape).rowMajor (ix1 e))) 0 = e
      rw [Equiv.symm_apply_apply]
      rfl
  rw [hfold, hx, countP_finRange, hcard, BitVec.zero_add]
  have hle : (landing idx n).card ≤ E := by
    have := Finset.card_le_univ (landing idx n)
    simpa using this
  exact StableHlo.Predicate.toInt_ofNat_small _ (lt_of_le_of_lt hle hE)

/-- A finite sum of reals, read in the extended reals term by term, is the real sum read there once. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- THE LAW. Over the reals (entries finite), summing `X e · W + b` over a set of rows is `(∑ X e) · W` plus the bias once
    per row: the projection commutes with the segment sum. -/
theorem rows_linear {E K : Nat} (S : Finset (Fin E)) (X : Fin E → Fin K → ℝ) (W : Fin K → ℝ) (b : ℝ) :
    ∑ e ∈ S, ((∑ k : Fin K, ((X e k : ℝ) : EReal) * ((W k : ℝ) : EReal)) + ((b : ℝ) : EReal))
      = (∑ k : Fin K, (∑ e ∈ S, ((X e k : ℝ) : EReal)) * ((W k : ℝ) : EReal)) + (((S.card : ℝ) : ℝ) : EReal) * ((b : ℝ) : EReal) := by
  have hL : ∀ e, (∑ k : Fin K, ((X e k : ℝ) : EReal) * ((W k : ℝ) : EReal)) + ((b : ℝ) : EReal)
      = (((∑ k : Fin K, X e k * W k) + b : ℝ) : EReal) := by
    intro e
    rw [EReal.coe_add, ← coe_sum]
    congr 1
  have hR : ∀ k, (∑ e ∈ S, ((X e k : ℝ) : EReal)) * ((W k : ℝ) : EReal) = (((∑ e ∈ S, X e k) * W k : ℝ) : EReal) := by
    intro k
    rw [EReal.coe_mul, ← coe_sum]
  rw [Finset.sum_congr rfl fun e _ => hL e, Finset.sum_congr rfl fun k _ => hR k, coe_sum, coe_sum,
    ← EReal.coe_mul, ← EReal.coe_add]
  congr 1
  -- the identity in ℝ
  rw [Finset.sum_add_distrib, Finset.sum_comm, Finset.sum_const, nsmul_eq_mul]
  congr 1
  exact Finset.sum_congr rfl fun k _ => (Finset.sum_mul _ _ _).symm

end Cert.LibScatterRows

end
-- ==== Proof.KernelHost.lean ====
/-
  What the kernel's launch finds in the five arrays its host code computes before it: the gathered source rows
  (jnp.take: the gather, masked to a fill value wherever a start index is out of range), their segment sum, the segment
  sizes as floats, the column mean of the node features, and the bias as a row. Each is read off the program's two stretches
  of host operations (the called take function's 23 operations, then 19 of its own) as a term over the launch's arguments.
-/
import proofs.«412600_j32890859553196_3_alg».proof.Proof.Gen.KernelIdeal.Frame
import proofs.«412600_j32890859553196_3_alg».proof.Proof.LibTypedRef
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx
import Idealize.ShloMosaic.Lib.Affine
import proofs.«412600_j32890859553196_3_alg».proof.Proof.Spec
import proofs.«412600_j32890859553196_3_alg».proof.Proof.LibScatterRows

noncomputable section

namespace Cert.KernelHost

open Cert.KernelIdeal Cert.KernelIdeal.Gen Idealize.ShloMosaic Idealize.ShloMosaic.TcCoe Idealize.SL.Sem
open Idealize.ShloMosaic.StableHlo

variable (m : (ℓ : Loc nD τ sig) → Buf (Elt Idealize.ShloMosaic.Ideal) ℓ)

/-! ## Two stretches, one after the other -/

/-- Running two lists of host operations in a row is running the second from what the first leaves. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => simp only [List.cons_append, after_cons, ih]

/-- The buffers after the called function's operations. -/
abbrev afterTake (c : Dev nD) : Valuation τ sig (Elt Idealize.ShloMosaic.Ideal) := after hostOps0 (fun b => m (c, b))

/-- What the region finds is what the second stretch leaves from there. -/
theorem V_split (c : Dev nD) (b : Ref sig .tc) : V m c b = after hostOps0_1 (afterTake m c) (Proc.devRef .tc b) := by
  show after (List.flatten [hostOps0, hostOps0_1]) (fun b => m (c, b)) (Proc.devRef .tc b) = _
  rw [show List.flatten [(hostOps0 : List (HloOp τ sig (Elt Idealize.ShloMosaic.Ideal))), hostOps0_1] = hostOps0 ++ hostOps0_1 from by
    simp only [List.flatten_cons, List.flatten_nil, List.append_nil], after_append]

/-! ## The launch's arguments at their literal types -/

abbrev nodes0 (c : Dev nD) : S50000x128.Idx → EReal := m (c, Proc.devRef .tc main_arg0)
abbrev bmsg0 (c : Dev nD) : S128.Idx → EReal := m (c, Proc.devRef .tc main_arg2)
abbrev src0 (c : Dev nD) : IVec S600000 32 := m (c, Proc.devRef .tc main_arg9)
abbrev dst0 (c : Dev nD) : IVec S600000 32 := m (c, Proc.devRef .tc main_arg10)

/-! ## The take -/

/-- The start indices the take gathers at: a negative index counted from the end, as a column. -/
def startIdx (a9 : IVec S600000 32) : IVec S600000x1 32 :=
  broadcastInDim S600000x1 ![0] bcast_S600000_S600000x1_0
    (select (cmpi .slt a9 (broadcastInDim S600000 ![] bcast_S_S600000 (constantI S_ 32 0#32)))
      (addi a9 (broadcastInDim S600000 ![] bcast_S_S600000 (constantI S_ 32 50000#32))) a9)

/-- The take's mask: the start index is inside the table, 0 ≤ index ≤ 49999. -/
def inRange (a9 : IVec S600000 32) : IVec S600000 1 :=
  Host.reduce IntOp.andi
    (andi (cmpi .sge (startIdx a9) (broadcastInDim S600000x1 ![] bcast_S_S600000x1 (constantI S_ 32 0#32)))
      (cmpi .sle (startIdx a9) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The gathered source rows (start indices clamped into the table). -/
def gathered (a0 : S50000x128.Idx → EReal) (a9 : IVec S600000 32) : S600000x128.Idx → EReal :=
  Host.gather gather_S50000x128_S600000x1_S600000x128_1_0_n_n_0_1_1128 a0 (startIdx a9)

/-- A launch argument read through its typed reference is the argument: the reference's type is the buffer's own. -/
theorem lit_src (c : Dev nD) :
    (TRef.of main_arg9 : TRef sig ⟨S600000, .i32⟩).ofBuf (m (c, Proc.devRef .tc main_arg9)) = src0 m c := cast_eq _ _
@[inherit_doc lit_src]
theorem lit_nodes (c : Dev nD) :
    (TRef.of main_arg0 : TRef sig ⟨S50000x128, .f32⟩).ofBuf (m (c, Proc.devRef .tc main_arg0)) = nodes0 m c := cast_eq _ _

set_option maxHeartbeats 4000000 in
/-- The take: the gathered row where the start index is in range, the fill value elsewhere. -/
theorem taken_eq (c : Dev nD) :
    (V m c main_v0 : S600000x128.Idx → EReal)
      = select (broadcastInDim S600000x128 ![0] bcast_S600000_S600000x128_0 (inRange (src0 m c)))
          (gathered (nodes0 m c) (src0 m c))
          (broadcastInDim S600000x128 ![] bcast_S_S600000x128 (constant (F := Idealize.ShloMosaic.Ideal) S_ .f32 0x7FC00000#32)) := by
  rw [V_split]
  have hW : after hostOps0_1 (afterTake m c) (Proc.devRef .tc main_v0) = afterTake m c (Proc.devRef .tc main_v0) := by
    generalize afterTake m c = W
    after_results_simp
  rw [hW]
  unfold afterTake
  after_results_simp
  simp only [Cert.Lib.TypedRef.ofBuf_toBuf, Cert.Lib.TypedRef.toBuf_ofBuf]
  refine (cast_eq _ _).trans ?_
  simp only [lit_src m c, lit_nodes m c]
  rfl

set_option maxHeartbeats 4000000 in
/-- The destination indices reach the second stretch as launched. -/
theorem afterTake_dst (c : Dev nD) : (afterTake m c (Proc.devRef .tc main_arg10) : IVec S600000 32) = dst0 m c := by
  unfold afterTake
  after_results_simp

set_option maxHeartbeats 4000000 in
theorem afterTake_nodes (c : Dev nD) : (afterTake m c (Proc.devRef .tc main_arg0) : S50000x128.Idx → EReal) = nodes0 m c := by
  unfold afterTake
  after_results_simp

set_option maxHeartbeats 4000000 in
theorem afterTake_bmsg (c : Dev nD) : (afterTake m c (Proc.devRef .tc main_arg2) : S128.Idx → EReal) = bmsg0 m c := by
  unfold afterTake
  after_results_simp

/-! ## The second stretch, over whatever the first leaves -/

section Second

variable (W : Valuation τ sig (Elt Idealize.ShloMosaic.Ideal))

abbrev Wnodes : S50000x128.Idx → EReal := W (Proc.devRef .tc main_arg0)
abbrev Wbmsg : S128.Idx → EReal := W (Proc.devRef .tc main_arg2)
abbrev Wdst : IVec S600000 32 := W (Proc.devRef .tc main_arg10)
abbrev Wtaken : S600000x128.Idx → EReal := W (Proc.devRef .tc main_v0)

set_option maxHeartbeats 4000000 in
/-- The second stretch does not write the taken rows. -/
theorem second_taken : after hostOps0_1 W (Proc.devRef .tc main_v0) = W (Proc.devRef .tc main_v0) := by
  after_results_simp

set_option maxHeartbeats 4000000 in
/-- The aggregated raw rows: the taken rows scatter-added into zeros at the destination indices. -/
theorem second_agg : (after hostOps0_1 W (Proc.devRef .tc main_v3) : S50000x128.Idx → EReal)
    = Host.scatterAdd scatter_S50000x128_S600000x1_S600000x128_1_0_0_1
        (broadcastInDim S50000x128 ![] bcast_S_S50000x128 (constant (F := Idealize.ShloMosaic.Ideal) S_ .f32 0x00000000#32))
        (broadcastInDim S600000x1 ![0] bcast_S600000_S600000x1_0 (Wdst W)) (Wtaken W) := by
  after_results_simp <;> rfl

set_option maxHeartbeats 4000000 in
/-- The degrees: ones scatter-added into integer zeros at the destination indices, converted, as a column. -/
theorem second_deg : (after hostOps0_1 W (Proc.devRef .tc main_v9) : S50000x1.Idx → EReal)
    = broadcastInDim S50000x1 ![0] bcast_S50000_S50000x1_0
        (sitofp (F := Idealize.ShloMosaic.Ideal) .f32 (Host.scatter scatter_S50000_S600000x1_S600000_n_0_0_1 IntOp.addi
          (broadcastInDim S50000 ![] bcast_S_S50000 (constantI S_ 32 0#32))
          (broadcastInDim S600000x1 ![0] bcast_S600000_S600000x1_0 (Wdst W))
          (broadcastInDim S600000 ![] bcast_S_S600000 (constantI S_ 32 1#32)))) := by
  after_results_simp <;> rfl

set_option maxHeartbeats 4000000 in
/-- The mean row: the column sums of the node features over 50000.0. -/
theorem second_mean : (after hostOps0_1 W (Proc.devRef .tc main_v13) : S1x128.Idx → EReal)
    = Host.divf (broadcastInDim S1x128 ![1] bcast_S128_S1x128_1
          (Host.reduceAdd (Wnodes W) (constant (F := Idealize.ShloMosaic.Ideal) S_ .f32 0x00000000#32) reducesTo_S50000x128_S128_d0 h_S_))
        (broadcastInDim S1x128 ![] bcast_S_S1x128 (constant (F := Idealize.ShloMosaic.Ideal) S_ .f32 0x47435000#32)) := by
  after_results_simp <;> rfl

set_option maxHeartbeats 4000000 in
/-- The bias as a row. -/
theorem second_bmsg : (after hostOps0_1 W (Proc.devRef .tc main_v14) : S1x128.Idx → EReal)
    = broadcastInDim S1x128 ![1] bcast_S128_S1x128_1 (Wbmsg W) := by
  after_results_simp <;> rfl

end Second

/-! ## The four arrays the kernel's own stretch computes, over the launch's arguments -/

/-- The destination indices as the column the two scatters read. -/
abbrev dstCol (c : Dev nD) : IVec S600000x1 32 := broadcastInDim S600000x1 ![0] bcast_S600000_S600000x1_0 (dst0 m c)

theorem agg_eq (c : Dev nD) : (V m c main_v3 : S50000x128.Idx → EReal)
    = Host.scatterAdd scatter_S50000x128_S600000x1_S600000x128_1_0_0_1
        (broadcastInDim S50000x128 ![] bcast_S_S50000x128 (constant (F := Idealize.ShloMosaic.Ideal) S_ .f32 0x00000000#32))
        (dstCol m c) (V m c main_v0) := by
  rw [V_split m c main_v3, second_agg, V_split m c main_v0, second_taken,
    show Wdst (afterTake m c) = dst0 m c from afterTake_dst m c]

theorem deg_eq (c : Dev nD) : (V m c main_v9 : S50000x1.Idx → EReal)
    = broadcastInDim S50000x1 ![0] bcast_S50000_S50000x1_0
        (sitofp (F := Idealize.ShloMosaic.Ideal) .f32 (Host.scatter scatter_S50000_S600000x1_S600000_n_0_0_1 IntOp.addi
          (broadcastInDim S50000 ![] bcast_S_S50000 (constantI S_ 32 0#32)) (dstCol m c)
          (broadcastInDim S600000 ![] bcast_S_S600000 (constantI S_ 32 1#32)))) := by
  rw [V_split m c main_v9, second_deg, show Wdst (afterTake m c) = dst0 m c from afterTake_dst m c]

theorem mean_eq (c : Dev nD) : (V m c main_v13 : S1x128.Idx → EReal)
    = Host.divf (broadcastInDim S1x128 ![1] bcast_S128_S1x128_1
          (Host.reduceAdd (nodes0 m c) (constant (F := Idealize.ShloMosaic.Ideal) S_ .f32 0x00000000#32) reducesTo_S50000x128_S128_d0 h_S_))
        (broadcastInDim S1x128 ![] bcast_S_S1x128 (constant (F := Idealize.ShloMosaic.Ideal) S_ .f32 0x47435000#32)) := by
  rw [V_split m c main_v13, second_mean, show Wnodes (afterTake m c) = nodes0 m c from afterTake_nodes m c]

theorem bmsg_eq (c : Dev nD) : (V m c main_v14 : S1x128.Idx → EReal)
    = broadcastInDim S1x128 ![1] bcast_S128_S1x128_1 (bmsg0 m c) := by
  rw [V_split m c main_v14, second_bmsg, show Wbmsg (afterTake m c) = bmsg0 m c from afterTake_bmsg m c]

end Cert.KernelHost

end
-- ==== Proof.LibScatterHost.lean ====
/-
  The host's float scatter-add of rows, read at an index, stated for the printed operation itself. At the ideal instance
  `Host.scatterAdd` IS the exact sum `Ideal.hostScatterAdd`; stating that once over arbitrary extents lets a certificate at
  large literal extents rewrite with it rather than ask for the unfolding there.
-/
import proofs.«412600_j32890859553196_3_alg».proof.Proof.LibScatterRows
import Idealize.ShloMosaic.PureOps.Contract

noncomputable section

namespace Cert.LibScatterRows

open Idealize.ShloMosaic Idealize.ShloMosaic.ValueIdx

/-- The printed scatter-add of rows, at the ideal instance, read at (n, h): the operand's entry plus the sum, over the update
    rows landing on `n`, of their entry in column `h`. -/
theorem host_scatterAdd_rows_apply {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hivd : d.indexVectorDim = 1) (x : FVec Ideal ⟨2, ![N, H]⟩ .f32) (idx : IVec ⟨2, ![E, 1]⟩ w)
    (upd : FVec Ideal ⟨2, ![E, H]⟩ .f32) (n : Fin N) (h : Fin H) :
    Host.scatterAdd d x idx upd (ix2 n h) = x (ix2 n h) + ∑ e ∈ landing idx n, upd (ix2 e h) :=
  scatterAdd_rows_apply d huw hiw hsd hivd x idx upd n h

end Cert.LibScatterRows

end
-- ==== Proof.KernelHostReads.lean ====
/-
  The arrays the kernel's host code computes, read at an index: the mean row is the column mean of the node features;
  the bias row is the bias; when every source index is inside the node table the taken rows are the gathered rows (the
  take's mask is all ones); the aggregated raw rows at (n, k) are the sum over the edges landing on node n of their taken
  row's entry k; and the degree of n is the number of those edges.
-/
import proofs.«412600_j32890859553196_3_alg».proof.Proof.KernelHost
import proofs.«412600_j32890859553196_3_alg».proof.Proof.LibScatterHost

noncomputable section

namespace Cert.KernelHost

open Cert.KernelIdeal Cert.KernelIdeal.Gen Idealize.ShloMosaic Idealize.ShloMosaic.TcCoe Idealize.SL.Sem
open Idealize.ShloMosaic.StableHlo

variable (m : (ℓ : Loc nD τ sig) → Buf (Elt Idealize.ShloMosaic.Ideal) ℓ)

section Reads

open Idealize.ShloMosaic.ValueIdx
open Cert.LibScatterRows (land landing)

/-- The taken rows as the region finds them, at their literal type. -/
abbrev taken0 (c : Dev nD) : S600000x128.Idx → EReal := V m c main_v0

/-- A left fold of `and` from 1 over words that are all 1 is 1. -/
theorem foldl_andi_one {ι : Type} (f : ι → BitVec 1) (l : List ι) (b : BitVec 1) (hb : b = 1#1) (h : ∀ i ∈ l, f i = 1#1) :
    l.foldl (fun r i => IntOp.andi r (f i)) b = 1#1 := by
  subst hb
  induction l with
  | nil => rfl
  | cons a l ih =>
    rw [List.foldl_cons, h a List.mem_cons_self, show IntOp.andi 1#1 1#1 = 1#1 from by decide]
    exact ih fun i hi => h i (List.mem_cons_of_mem _ hi)

/-- A vector read as the column [n, 1]: entry (e, 0) is entry e. -/
theorem col_apply {α : Type} (v : S600000.Idx → α) (e : Fin 600000) :
    broadcastInDim S600000x1 ![0] bcast_S600000_S600000x1_0 v (ix2 e 0) = v (ix1 e) :=
  broadcastInDim_apply ![0] bcast_S600000_S600000x1_0 v (ix2 e 0) (ix1 e) (fun a => match a with
    | ⟨0, _⟩ => by show e.val = if (600000 : Nat) = 1 then 0 else e.val; rw [if_neg (by decide)])

/-- A nonnegative index is its own start index (nothing is counted from the end). -/
theorem startIdx_apply (a9 : IVec S600000 32) (e : Fin 600000) (h : 0 ≤ (a9 (ix1 e)).toInt) :
    startIdx a9 (ix2 e 0) = a9 (ix1 e) := by
  unfold startIdx
  rw [col_apply]
  show Scalar.select (IntOp.cmpi .slt (a9 (ix1 e)) 0#32) (IntOp.addi (a9 (ix1 e)) 50000#32) (a9 (ix1 e)) = a9 (ix1 e)
  have h0 : IntOp.cmpi .slt (a9 (ix1 e)) 0#32 = 0#1 := eq_zero_of_ne_one fun h1 => by
    have := IntOp.cmpi_slt.1 h1
    rw [show (0#32 : BitVec 32).toInt = 0 from by decide] at this
    omega
  rw [h0]; exact select_zero _ _

/-- When every source index is inside the table the take's mask is all ones. -/
theorem inRange_one (a9 : IVec S600000 32) (hsrc : ∀ e, 0 ≤ (a9 e).toInt ∧ (a9 e).toInt < 50000) (j : S600000.Idx) :
    inRange a9 j = 1#1 := by
  unfold inRange
  rw [Host.reduce_eq_foldl]
  refine foldl_andi_one _ _ _ rfl fun i _ => ?_
  obtain ⟨e, z, rfl⟩ : ∃ (e : Fin 600000) (z : Fin 1), i = ix2 e z := ⟨i 0, i 1, eq_ix2 i⟩
  have hz : z = 0 := Subsingleton.elim _ _
  subst hz
  show IntOp.andi (IntOp.cmpi .sge (startIdx a9 (ix2 e 0)) 0#32) (IntOp.cmpi .sle (startIdx a9 (ix2 e 0)) 49999#32) = 1#1
  rw [startIdx_apply a9 e (hsrc _).1]
  have h1 : IntOp.cmpi .sge (a9 (ix1 e)) 0#32 = 1#1 := IntOp.cmpi_sge.2 (by
    rw [show (0#32 : BitVec 32).toInt = 0 from by decide]; exact (hsrc _).1)
  have h2 : IntOp.cmpi .sle (a9 (ix1 e)) 49999#32 = 1#1 := IntOp.cmpi_sle.2 (by
    rw [show (49999#32 : BitVec 32).toInt = 49999 from by decide]; have := (hsrc (ix1 e)).2; omega)
  rw [h1, h2]; decide

/-- With every source index inside the table, the taken rows are the gathered rows. -/
theorem taken_apply (c : Dev nD) (hsrc : ∀ e, 0 ≤ (src0 m c e).toInt ∧ (src0 m c e).toInt < 50000)
    (e : Fin 600000) (k : Fin 128) :
    taken0 m c (ix2 e k) = gathered (nodes0 m c) (src0 m c) (ix2 e k) := by
  show (V m c main_v0 : S600000x128.Idx → EReal) (ix2 e k) = _
  rw [taken_eq]
  show Scalar.select (broadcastInDim S600000x128 ![0] bcast_S600000_S600000x128_0 (inRange (src0 m c)) (ix2 e k))
      (gathered (nodes0 m c) (src0 m c) (ix2 e k)) _ = _
  rw [broadcastInDim_apply ![0] bcast_S600000_S600000x128_0 (inRange (src0 m c)) (ix2 e k) (ix1 e) (fun a => match a with
    | ⟨0, _⟩ => by show e.val = if (600000 : Nat) = 1 then 0 else e.val; rw [if_neg (by decide)]),
    inRange_one (src0 m c) hsrc]
  exact select_one _ _

/-- Every gathered entry is an entry of the table. -/
theorem gathered_mem (a0 : S50000x128.Idx → EReal) (a9 : IVec S600000 32) (j : S600000x128.Idx) :
    ∃ i, gathered a0 a9 j = a0 i := ⟨_, rfl⟩

/-- The aggregated raw rows are the taken rows scatter-added into zeros at the destination indices. -/
theorem agg_eq' (c : Dev nD) : (V m c main_v3 : S50000x128.Idx → EReal)
    = Host.scatterAdd scatter_S50000x128_S600000x1_S600000x128_1_0_0_1
        (broadcastInDim S50000x128 ![] bcast_S_S50000x128 (constant (F := Idealize.ShloMosaic.Ideal) S_ .f32 0x00000000#32))
        (dstCol m c) (taken0 m c) := agg_eq m c

/-- The aggregated raw rows at (n, k): the sum, over the edges landing on node n, of their taken row's entry k. -/
theorem agg_apply (c : Dev nD) (n : Fin 50000) (k : Fin 128) :
    (V m c main_v3 : S50000x128.Idx → EReal) (ix2 n k) = ∑ e ∈ landing (dstCol m c) n, taken0 m c (ix2 e k) := by
  rw [agg_eq', Cert.LibScatterRows.host_scatterAdd_rows_apply scatter_S50000x128_S600000x1_S600000x128_1_0_0_1 rfl rfl rfl rfl]
  rw [show broadcastInDim S50000x128 ![] bcast_S_S50000x128 (constant (F := Idealize.ShloMosaic.Ideal) S_ .f32 0x00000000#32) (ix2 n k)
      = Ideal.ofBits .f32 0x00000000#32 from rfl, Ideal.ofBits_zero_f32, zero_add]

/-- At the ideal instance an integer converts to the real number it denotes, read signed. -/
theorem sitofp_ideal (b : BitVec 32) : FloatOps.sitofp (F := Idealize.ShloMosaic.Ideal) .f32 b = ((b.toInt : ℝ) : EReal) := rfl

/-- The degree of node n: the number of edges landing on it. -/
theorem deg_apply (c : Dev nD) (n : Fin 50000) :
    (V m c main_v9 : S50000x1.Idx → EReal) (ix2 n 0) = (((landing (dstCol m c) n).card : ℝ) : EReal) := by
  rw [deg_eq, broadcastInDim_apply ![0] bcast_S50000_S50000x1_0 _ (ix2 n 0) (ix1 n) (fun a => match a with
    | ⟨0, _⟩ => by show n.val = if (50000 : Nat) = 1 then 0 else n.val; rw [if_neg (by decide)]),
    sitofp_apply, sitofp_ideal,
    Cert.LibScatterRows.scatter_count scatter_S50000_S600000x1_S600000_n_0_0_1 rfl rfl rfl rfl (by norm_num)
      (broadcastInDim S50000 ![] bcast_S_S50000 (constantI S_ 32 0#32)) (fun _ => rfl) (dstCol m c)
      (broadcastInDim S600000 ![] bcast_S_S600000 (constantI S_ 32 1#32)) (fun _ => rfl) n,
    Int.cast_natCast]

/-- The mean row at lane k: the column mean of the node features. -/
theorem mean_apply (c : Dev nD) (k : Fin 128) :
    (V m c main_v13 : S1x128.Idx → EReal) (ix2 0 k) = Cert.GruLn.colMean (nodes0 m c) k := by
  rw [mean_eq]
  have hs : Host.reduceAdd (nodes0 m c) (constant (F := Idealize.ShloMosaic.Ideal) S_ .f32 0x00000000#32) reducesTo_S50000x128_S128_d0 h_S_ (ix1 k)
      = ∑ n : Fin 50000, nodes0 m c (ix2 n k) := by
    simp only [Host.reduceAdd, Ideal.hostReduceAdd_def]
    rw [Ideal.hostReduceAdd_single reducesTo_S50000x128_S128_d0 (by decide)]
    rw [show (constant (F := Idealize.ShloMosaic.Ideal) S_ .f32 0x00000000#32) (Shape.Idx.first h_S_) = Ideal.ofBits .f32 0x00000000#32 from rfl,
      Ideal.ofBits_zero_f32, zero_add]
    exact Finset.sum_congr rfl fun n _ => congrArg (nodes0 m c) (funext fun a => Fin.ext (by
      match a with
      | ⟨0, _⟩ => rfl
      | ⟨1, _⟩ => rfl))
  show Ideal.div (broadcastInDim S1x128 ![1] bcast_S128_S1x128_1 (Host.reduceAdd (nodes0 m c)
      (constant (F := Idealize.ShloMosaic.Ideal) S_ .f32 0x00000000#32) reducesTo_S50000x128_S128_d0 h_S_) (ix2 0 k))
      (Ideal.ofBits .f32 0x47435000#32) = _
  rw [broadcastInDim_apply ![1] bcast_S128_S1x128_1 _ (ix2 0 k) (ix1 k) (fun a => match a with
    | ⟨0, _⟩ => by show k.val = if (128 : Nat) = 1 then 0 else k.val; rw [if_neg (by decide)]), hs]
  rfl

/-- The bias row at lane h. -/
theorem bmsg_apply (c : Dev nD) (h : Fin 128) :
    (V m c main_v14 : S1x128.Idx → EReal) (ix2 0 h) = bmsg0 m c (ix1 h) := by
  rw [bmsg_eq]
  exact broadcastInDim_apply ![1] bcast_S128_S1x128_1 _ (ix2 0 h) (ix1 h) (fun a => match a with
    | ⟨0, _⟩ => by show h.val = if (128 : Nat) = 1 then 0 else h.val; rw [if_neg (by decide)])

end Reads

end Cert.KernelHost

end
-- ==== Proof.BlocksDefs.lean ====
/-
  The kernel's result as one function of the arrays its launch finds. The launch walks the 50000 nodes in 25 blocks of 2000
  rows: at point t it stages rows [2000 t, 2000 t + 2000) of the node features, of the aggregated raw rows and of the degrees,
  and the whole of every parameter array, and writes back the same rows of the result. Here: those arrays at their literal
  types, the message row and the result they determine (row by row, the node update of Spec.lean), and where each
  window's block sits at each of the 25 points.
-/
import proofs.«412600_j32890859553196_3_alg».proof.Proof.Gen.KernelIdeal.Value
import proofs.«412600_j32890859553196_3_alg».proof.Proof.Spec
import Idealize.ShloMosaic.PureOps.Ideal
import Idealize.ShloMosaic.Lib.ValueIdx
import Idealize.ShloMosaic.Lib.Pipeline.Value

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GruLn (row mat vec)

variable (m : (ℓ : Loc nD τ sig) → Buf (Elt Idealize.ShloMosaic.Ideal) ℓ) (ρ : Dev nD → PrngReg)

/-! ## The arrays as the region finds them, at their literal types (the row-blocked node features and the four arrays
    the host code computes — the aggregated rows, the degrees, the mean row, the bias row — named as the windows that stage them
    name them) -/

abbrev nodesA (c : Dev nD) : S50000x128.Idx → EReal := V m c (Pipeline.arrRef spec0 0)
abbrev aggA (c : Dev nD) : S50000x128.Idx → EReal := V m c (Pipeline.arrRef spec0 1)
abbrev degA (c : Dev nD) : S50000x1.Idx → EReal := V m c (Pipeline.arrRef spec0 2)
abbrev meanA (c : Dev nD) : S1x128.Idx → EReal := V m c (Pipeline.arrRef spec0 3)
abbrev wmsgA (c : Dev nD) : S128x128.Idx → EReal := V m c main_arg1
abbrev wihA (c : Dev nD) : S384x128.Idx → EReal := V m c main_arg3
abbrev whhA (c : Dev nD) : S384x128.Idx → EReal := V m c main_arg4
abbrev bihA (c : Dev nD) : S384.Idx → EReal := V m c main_arg5
abbrev bhhA (c : Dev nD) : S384.Idx → EReal := V m c main_arg6
abbrev bmsgA (c : Dev nD) : S1x128.Idx → EReal := V m c (Pipeline.arrRef spec0 9)
abbrev gamA (c : Dev nD) : S128.Idx → EReal := V m c main_arg7
abbrev betA (c : Dev nD) : S128.Idx → EReal := V m c main_arg8

/-- The kernel's message row of node n: the aggregated raw row against W_msg, plus degree times bias. -/
def msgRow (c : Dev nD) (n : Fin 50000) : Fin 128 → EReal := fun h =>
  (∑ k : Fin 128, aggA m c (ix2 n k) * wmsgA m c (ix2 h k)) + degA m c (ix2 n 0) * bmsgA m c (ix2 0 h)

/-- Node n, lane q of the result: the node update of Spec.lean on row n. -/
def resultAt (c : Dev nD) (n : Fin 50000) (q : Fin 128) : EReal :=
  Cert.GruLn.out (row (meanA m c) 0) (mat (wihA m c)) (mat (whhA m c)) (vec (bihA m c)) (vec (bhhA m c))
    (vec (gamA m c)) (vec (betA m c)) (row (nodesA m c) n) (msgRow m c n) q

/-- The result array as one function of the arrays the region finds. -/
def result (c : Dev nD) : S50000x128.Idx → EReal := fun i => resultAt m c ⟨(i 0).val, (i 0).isLt⟩ ⟨(i 1).val, (i 1).isLt⟩

theorem result_ix2 (c : Dev nD) (n : Fin 50000) (q : Fin 128) : result m c (ix2 n q) = resultAt m c n q := rfl

/-- The node update is a function of its nine arguments. -/
theorem out_congr {mean mean' : Fin 128 → EReal} {wih wih' whh whh' : Fin 384 → Fin 128 → EReal} {bih bih' bhh bhh' : Fin 384 → EReal}
    {gam gam' bet bet' x x' M M' : Fin 128 → EReal} (h1 : mean = mean') (h2 : wih = wih') (h3 : whh = whh') (h4 : bih = bih')
    (h5 : bhh = bhh') (h6 : gam = gam') (h7 : bet = bet') (h8 : x = x') (h9 : M = M') (q : Fin 128) :
    Cert.GruLn.out mean wih whh bih bhh gam bet x M q = Cert.GruLn.out mean' wih' whh' bih' bhh' gam' bet' x' M' q := by
  subst h1 h2 h3 h4 h5 h6 h7 h8 h9; rfl

/-! ## The index maps, decided over the 25 points -/

theorem hz2 : (![0, 0] : Fin 2 → Nat) = fun _ => 0 := funext fun a => by fin_cases a <;> rfl
theorem hz1 : (![0] : Fin 1 → Nat) = fun _ => 0 := funext fun a => by fin_cases a; rfl

/-- The three row-blocked inputs and the output sit at block (t, 0); every parameter array at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 1) = 0
    ∧ win0_12.index t (0 : Fin 2) = t.val ∧ win0_12.index t (1 : Fin 2) = 0 :=
  (by decide +kernel : ∀ t : Fin grid0.N, _)

theorem point_lt (t : Fin cfg0.N) : t.val < 25 := lt_of_lt_of_eq t.isLt N_0

/-- Row p of block t is row 2000 t + p of the array. -/
def rowOf (t : Fin cfg0.N) (p : Fin 2000) : Fin 50000 := ⟨2000 * t.val + p.val, by have := point_lt t; omega⟩

end Cert.KernelBlocks

end
-- ==== Proof.BlocksReadsA.lean ====
/-
  The four row-blocked and host-computed windows read: row p of block t of the node features, of the aggregated raw rows
  and of the degrees is row 2000 t + p of the array; the mean row is staged whole at every point.
-/
import proofs.«412600_j32890859553196_3_alg».proof.Proof.BlocksDefs

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GruLn (row mat vec)

variable (m : (ℓ : Loc nD τ sig) → Buf (Elt Idealize.ShloMosaic.Ideal) ℓ) (ρ : Dev nD → PrngReg)

/-! ## The blocks, read -/

/-- Row p of the node block at point t. -/
theorem nodes_blk (c : Dev nD) (t : Fin cfg0.N) (p : Fin 2000) (k : Fin 128) :
    (iblk m c 0 t : Vec Idealize.ShloMosaic.Ideal S2000x128 .f32) (ix2 p k) = nodesA m c (ix2 (rowOf t p) k) := by
  show V m c (Pipeline.arrRef spec0 0) (((cfg0.win 0).blk t).view.emb (ix2 p k)) = V m c (Pipeline.arrRef spec0 0) (ix2 (rowOf t p) k)
  have h : ((cfg0.win 0).blk t).view.emb (ix2 p k) = ix2 (rowOf t p) k := by
    obtain ⟨e0, e1, -⟩ := idx_facts t
    funext a; apply Fin.ext
    match a with
    | ⟨0, _⟩ => show win0_0.index t (0 : Fin 2) * 2000 + 1 * p.val = 2000 * t.val + p.val; omega
    | ⟨1, _⟩ => show win0_0.index t (1 : Fin 2) * 128 + 1 * k.val = k.val; omega
  rw [h]

/-- Row p of block t of ANY array laid out as window 1's is row 2000 t + p of that array. -/
theorem agg_read (A : S50000x128.Idx → EReal) (t : Fin cfg0.N) (p : Fin 2000) (k : Fin 128) :
    ((cfg0.win 1).blk t).view.read (Elt Idealize.ShloMosaic.Ideal) A (ix2 p k) = A (ix2 (rowOf t p) k) := by
  show A (((cfg0.win 1).blk t).view.emb (ix2 p k)) = A (ix2 (rowOf t p) k)
  have h : ((cfg0.win 1).blk t).view.emb (ix2 p k) = ix2 (rowOf t p) k := by
    have e := idx_facts t
    funext a; apply Fin.ext
    match a with
    | ⟨0, _⟩ => show win0_1.index t (0 : Fin 2) * 2000 + 1 * p.val = 2000 * t.val + p.val; omega
    | ⟨1, _⟩ => show win0_1.index t (1 : Fin 2) * 128 + 1 * k.val = k.val; omega
  rw [h]

/-- Row p of the block of aggregated raw rows at point t. -/
theorem agg_blk (c : Dev nD) (t : Fin cfg0.N) (p : Fin 2000) (k : Fin 128) :
    (iblk m c 1 t : Vec Idealize.ShloMosaic.Ideal S2000x128 .f32) (ix2 p k) = aggA m c (ix2 (rowOf t p) k) :=
  agg_read (aggA m c) t p k

/-- Entry p of the block of degrees at point t. -/
theorem deg_blk (c : Dev nD) (t : Fin cfg0.N) (p : Fin 2000) :
    (iblk m c 2 t : Vec Idealize.ShloMosaic.Ideal S2000x1 .f32) (ix2 p 0) = degA m c (ix2 (rowOf t p) 0) := by
  show V m c (Pipeline.arrRef spec0 2) (((cfg0.win 2).blk t).view.emb (ix2 p 0)) = V m c (Pipeline.arrRef spec0 2) (ix2 (rowOf t p) 0)
  have h : ((cfg0.win 2).blk t).view.emb (ix2 p (0 : Fin 1)) = ix2 (rowOf t p) (0 : Fin 1) := by
    have e := idx_facts t
    funext a; apply Fin.ext
    match a with
    | ⟨0, _⟩ => show win0_2.index t (0 : Fin 2) * 2000 + 1 * p.val = 2000 * t.val + p.val; omega
    | ⟨1, _⟩ => show win0_2.index t (1 : Fin 2) * 1 + 1 * 0 = 0; omega
  rw [h]

/-- The mean row is staged whole at every point. -/
theorem mean_blk (c : Dev nD) (t : Fin cfg0.N) : (iblk m c 3 t : Vec Idealize.ShloMosaic.Ideal S1x128 .f32) = meanA m c := by
  funext j
  show V m c (Pipeline.arrRef spec0 3) (((cfg0.win 3).blk t).view.emb j) = V m c (Pipeline.arrRef spec0 3) j
  have h : ((cfg0.win 3).blk t).view.emb j = j := by
    have e := idx_facts t
    funext a; apply Fin.ext
    match a with
    | ⟨0, _⟩ => show win0_3.index t (0 : Fin 2) * 1 + 1 * (j 0).val = (j 0).val; omega
    | ⟨1, _⟩ => show win0_3.index t (1 : Fin 2) * 128 + 1 * (j 1).val = (j 1).val; omega
  rw [h]

end Cert.KernelBlocks

end
-- ==== Proof.BlocksReadsB.lean ====
/-
  Four parameter windows read: the message weights, the two gate weight matrices and the input-side gate biases are
  staged whole at every point (their block index is 0 on every axis), so a block entry is the array's entry.
-/
import proofs.«412600_j32890859553196_3_alg».proof.Proof.BlocksDefs

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GruLn (row mat vec)

variable (m : (ℓ : Loc nD τ sig) → Buf (Elt Idealize.ShloMosaic.Ideal) ℓ) (ρ : Dev nD → PrngReg)

/-! ## The blocks, read -/

/-- The message weights are staged whole at every point. -/
theorem wmsg_blk (c : Dev nD) (t : Fin cfg0.N) : (iblk m c 4 t : Vec Idealize.ShloMosaic.Ideal S128x128 .f32) = wmsgA m c := by
  funext j
  show V m c main_arg1 (((cfg0.win 4).blk t).view.emb j) = V m c main_arg1 j
  have h : ((cfg0.win 4).blk t).view.emb j = j := by
    have e := idx_facts t
    funext a; apply Fin.ext
    match a with
    | ⟨0, _⟩ => show win0_4.index t (0 : Fin 2) * 128 + 1 * (j 0).val = (j 0).val; omega
    | ⟨1, _⟩ => show win0_4.index t (1 : Fin 2) * 128 + 1 * (j 1).val = (j 1).val; omega
  rw [h]

/-- The input-side gate weights are staged whole at every point. -/
theorem wih_blk (c : Dev nD) (t : Fin cfg0.N) : (iblk m c 5 t : Vec Idealize.ShloMosaic.Ideal S384x128 .f32) = wihA m c := by
  funext j
  show V m c main_arg3 (((cfg0.win 5).blk t).view.emb j) = V m c main_arg3 j
  have h : ((cfg0.win 5).blk t).view.emb j = j := by
    have e := idx_facts t
    funext a; apply Fin.ext
    match a with
    | ⟨0, _⟩ => show win0_5.index t (0 : Fin 2) * 384 + 1 * (j 0).val = (j 0).val; omega
    | ⟨1, _⟩ => show win0_5.index t (1 : Fin 2) * 128 + 1 * (j 1).val = (j 1).val; omega
  rw [h]

/-- The hidden-side gate weights are staged whole at every point. -/
theorem whh_blk (c : Dev nD) (t : Fin cfg0.N) : (iblk m c 6 t : Vec Idealize.ShloMosaic.Ideal S384x128 .f32) = whhA m c := by
  funext j
  show V m c main_arg4 (((cfg0.win 6).blk t).view.emb j) = V m c main_arg4 j
  have h : ((cfg0.win 6).blk t).view.emb j = j := by
    have e := idx_facts t
    funext a; apply Fin.ext
    match a with
    | ⟨0, _⟩ => show win0_6.index t (0 : Fin 2) * 384 + 1 * (j 0).val = (j 0).val; omega
    | ⟨1, _⟩ => show win0_6.index t (1 : Fin 2) * 128 + 1 * (j 1).val = (j 1).val; omega
  rw [h]

/-- The input-side gate biases are staged whole at every point. -/
theorem bih_blk (c : Dev nD) (t : Fin cfg0.N) : (iblk m c 7 t : Vec Idealize.ShloMosaic.Ideal S384 .f32) = bihA m c := by
  funext j
  show V m c main_arg5 (((cfg0.win 7).blk t).view.emb j) = V m c main_arg5 j
  have h : ((cfg0.win 7).blk t).view.emb j = j := by
    have e := idx_facts t
    funext a; apply Fin.ext
    match a with
    | ⟨0, _⟩ => show win0_7.index t (0 : Fin 1) * 384 + 1 * (j 0).val = (j 0).val; omega
  rw [h]

end Cert.KernelBlocks

end
-- ==== Proof.BlocksReadsC.lean ====
/-
  Four parameter windows read: the hidden-side gate biases, the message bias row and the normalisation's scale and shift
  are staged whole at every point, so a block entry is the array's entry.
-/
import proofs.«412600_j32890859553196_3_alg».proof.Proof.BlocksDefs

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GruLn (row mat vec)

variable (m : (ℓ : Loc nD τ sig) → Buf (Elt Idealize.ShloMosaic.Ideal) ℓ) (ρ : Dev nD → PrngReg)

/-! ## The blocks, read -/

/-- The hidden-side gate biases are staged whole at every point. -/
theorem bhh_blk (c : Dev nD) (t : Fin cfg0.N) : (iblk m c 8 t : Vec Idealize.ShloMosaic.Ideal S384 .f32) = bhhA m c := by
  funext j
  show V m c main_arg6 (((cfg0.win 8).blk t).view.emb j) = V m c main_arg6 j
  have h : ((cfg0.win 8).blk t).view.emb j = j := by
    have e := idx_facts t
    funext a; apply Fin.ext
    match a with
    | ⟨0, _⟩ => show win0_8.index t (0 : Fin 1) * 384 + 1 * (j 0).val = (j 0).val; omega
  rw [h]

/-- The message bias row is staged whole at every point. -/
theorem bmsg_blk (c : Dev nD) (t : Fin cfg0.N) : (iblk m c 9 t : Vec Idealize.ShloMosaic.Ideal S1x128 .f32) = bmsgA m c := by
  funext j
  show V m c (Pipeline.arrRef spec0 9) (((cfg0.win 9).blk t).view.emb j) = V m c (Pipeline.arrRef spec0 9) j
  have h : ((cfg0.win 9).blk t).view.emb j = j := by
    have e := idx_facts t
    funext a; apply Fin.ext
    match a with
    | ⟨0, _⟩ => show win0_9.index t (0 : Fin 2) * 1 + 1 * (j 0).val = (j 0).val; omega
    | ⟨1, _⟩ => show win0_9.index t (1 : Fin 2) * 128 + 1 * (j 1).val = (j 1).val; omega
  rw [h]

/-- The normalisation's scale is staged whole at every point. -/
theorem gam_blk (c : Dev nD) (t : Fin cfg0.N) : (iblk m c 10 t : Vec Idealize.ShloMosaic.Ideal S128 .f32) = gamA m c := by
  funext j
  show V m c main_arg7 (((cfg0.win 10).blk t).view.emb j) = V m c main_arg7 j
  have h : ((cfg0.win 10).blk t).view.emb j = j := by
    have e := idx_facts t
    funext a; apply Fin.ext
    match a with
    | ⟨0, _⟩ => show win0_10.index t (0 : Fin 1) * 128 + 1 * (j 0).val = (j 0).val; omega
  rw [h]

/-- The normalisation's shift is staged whole at every point. -/
theorem bet_blk (c : Dev nD) (t : Fin cfg0.N) : (iblk m c 11 t : Vec Idealize.ShloMosaic.Ideal S128 .f32) = betA m c := by
  funext j
  show V m c main_arg8 (((cfg0.win 11).blk t).view.emb j) = V m c main_arg8 j
  have h : ((cfg0.win 11).blk t).view.emb j = j := by
    have e := idx_facts t
    funext a; apply Fin.ext
    match a with
    | ⟨0, _⟩ => show win0_11.index t (0 : Fin 1) * 128 + 1 * (j 0).val = (j 0).val; omega
  rw [h]

end Cert.KernelBlocks

end
-- ==== Proof.KernelPay.lean ====
/-
  The kernel's body, read one row of a block at a time: what it stores at (p, q) of the output block is the row function of
  Spec.lean applied to row p of the node block and row p of ITS messages block, and that messages block is the aggregated
  raw rows times W_msgᵀ plus the degree times the bias.
-/
import proofs.«412600_j32890859553196_3_alg».proof.Proof.Gen.KernelIdeal.Skeleton
import proofs.«412600_j32890859553196_3_alg».proof.Proof.Spec
import Idealize.ShloMosaic.Lib.Pipeline.Value
import Idealize.ShloMosaic.Lib.ValueLayout

noncomputable section

namespace Cert.KernelPay

open Cert.KernelIdeal Cert.KernelIdeal.Gen Idealize.ShloMosaic Idealize.ShloMosaic.ValueIdx
open Cert.GruLn (row mat vec)

/-! ## Layout operations of the body, read at coordinates -/

section Layout
variable {α : Type}

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The two block products at an entry -/

/-! ### The product of the messages: both operands are read along their second axis -/

private theorem lhs_msg_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
private theorem lhs_msg_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
private theorem rhs_msg_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
private theorem rhs_msg_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- Into the zero accumulator, entry `(p, g)` of the product is the sum over the 128 lanes of row `p` of the left operand
    against row `g` of the right one. -/
private theorem matmul_msg_apply {φ₁ φ₂ : FTy} (A : FVec Ideal S2000x128 φ₁) (B : FVec Ideal S128x128 φ₂) (p : Fin 2000) (g : Fin 128) :
    matmul dot_S2000x128_S128x128_S2000x128_1_1_0_0_n_n none A B (constant (F := Ideal) S2000x128 .f32 0x00000000#32) (ix2 p g)
      = ∑ k : Fin 128, A (ix2 p k) * B (ix2 g k) := by
  simp only [matmul]
  rw [Ideal.matmul_constant_zero_apply, ← Equiv.sum_comp (ValueIdx.contrEquiv1 dot_S2000x128_S128x128_S2000x128_1_1_0_0_n_n 128 rfl rfl).symm]
  refine Finset.sum_congr rfl fun k _ => ?_
  have hk := ValueIdx.contrEquiv1_symm_val dot_S2000x128_S128x128_S2000x128_1_1_0_0_n_n 128 rfl rfl k
  have el : dot_S2000x128_S128x128_S2000x128_1_1_0_0_n_n.lhsIdx (ix2 p g) ((ValueIdx.contrEquiv1 dot_S2000x128_S128x128_S2000x128_1_1_0_0_n_n 128 rfl rfl).symm k) = ix2 p k := funext fun a => Fin.ext (by
    match a with
    | ⟨0, _⟩ => exact lhs_msg_0 _ _
    | ⟨1, _⟩ => exact (lhs_msg_1 _ _).trans hk)
  have er : dot_S2000x128_S128x128_S2000x128_1_1_0_0_n_n.rhsIdx (ix2 p g) ((ValueIdx.contrEquiv1 dot_S2000x128_S128x128_S2000x128_1_1_0_0_n_n 128 rfl rfl).symm k) = ix2 g k := funext fun a => Fin.ext (by
    match a with
    | ⟨0, _⟩ => exact rhs_msg_0 _ _
    | ⟨1, _⟩ => exact (rhs_msg_1 _ _).trans hk)
  rw [el, er]

/-! ### The product of the gate pre-activations: both operands are read along their second axis -/

private theorem lhs_gate_0 (i : S2000x384.Idx) (q : dot_S2000x128_S384x128_S2000x384_1_1_0_0_n_n.contr.Idx) :
    (dot_S2000x128_S384x128_S2000x384_1_1_0_0_n_n.lhsIdx i q 0).val = (i 0).val := by
  unfold DotDims.lhsIdx
  rw [dif_neg (show ¬(0 : Fin S2000x128.rank) ∈ dot_S2000x128_S384x128_S2000x384_1_1_0_0_n_n.lhsBatch by decide), dif_pos (show (0 : Fin S2000x128.rank) ∈ dot_S2000x128_S384x128_S2000x384_1_1_0_0_n_n.lhsNonContracting by decide)]
  rfl
private theorem lhs_gate_1 (i : S2000x384.Idx) (q : dot_S2000x128_S384x128_S2000x384_1_1_0_0_n_n.contr.Idx) :
    (dot_S2000x128_S384x128_S2000x384_1_1_0_0_n_n.lhsIdx i q 1).val = (q ⟨0, by decide⟩).val :=
  dot_S2000x128_S384x128_S2000x384_1_1_0_0_n_n.lhsIdx_val_of_single rfl i q
private theorem rhs_gate_0 (i : S2000x384.Idx) (q : dot_S2000x128_S384x128_S2000x384_1_1_0_0_n_n.contr.Idx) :
    (dot_S2000x128_S384x128_S2000x384_1_1_0_0_n_n.rhsIdx i q 0).val = (i 1).val := by
  unfold DotDims.rhsIdx
  rw [dif_neg (show ¬(0 : Fin S384x128.rank) ∈ dot_S2000x128_S384x128_S2000x384_1_1_0_0_n_n.rhsBatch by decide), dif_pos (show (0 : Fin S384x128.rank) ∈ dot_S2000x128_S384x128_S2000x384_1_1_0_0_n_n.rhsNonContracting by decide)]
  rfl
private theorem rhs_gate_1 (i : S2000x384.Idx) (q : dot_S2000x128_S384x128_S2000x384_1_1_0_0_n_n.contr.Idx) :
    (dot_S2000x128_S384x128_S2000x384_1_1_0_0_n_n.rhsIdx i q 1).val = (q ⟨0, by decide⟩).val :=
  dot_S2000x128_S384x128_S2000x384_1_1_0_0_n_n.rhsIdx_val_of_single rfl i q

/-- Into the zero accumulator, entry `(p, g)` of the product is the sum over the 128 lanes of row `p` of the left operand
    against row `g` of the right one. -/
private theorem matmul_gate_apply {φ₁ φ₂ : FTy} (A : FVec Ideal S2000x128 φ₁) (B : FVec Ideal S384x128 φ₂) (p : Fin 2000) (g : Fin 384) :
    matmul dot_S2000x128_S384x128_S2000x384_1_1_0_0_n_n none A B (constant (F := Ideal) S2000x384 .f32 0x00000000#32) (ix2 p g)
      = ∑ k : Fin 128, A (ix2 p k) * B (ix2 g k) := by
  simp only [matmul]
  rw [Ideal.matmul_constant_zero_apply, ← Equiv.sum_comp (ValueIdx.contrEquiv1 dot_S2000x128_S384x128_S2000x384_1_1_0_0_n_n 128 rfl rfl).symm]
  refine Finset.sum_congr rfl fun k _ => ?_
  have hk := ValueIdx.contrEquiv1_symm_val dot_S2000x128_S384x128_S2000x384_1_1_0_0_n_n 128 rfl rfl k
  have el : dot_S2000x128_S384x128_S2000x384_1_1_0_0_n_n.lhsIdx (ix2 p g) ((ValueIdx.contrEquiv1 dot_S2000x128_S384x128_S2000x384_1_1_0_0_n_n 128 rfl rfl).symm k) = ix2 p k := funext fun a => Fin.ext (by
    match a with
    | ⟨0, _⟩ => exact lhs_gate_0 _ _
    | ⟨1, _⟩ => exact (lhs_gate_1 _ _).trans hk)
  have er : dot_S2000x128_S384x128_S2000x384_1_1_0_0_n_n.rhsIdx (ix2 p g) ((ValueIdx.contrEquiv1 dot_S2000x128_S384x128_S2000x384_1_1_0_0_n_n 128 rfl rfl).symm k) = ix2 g k := funext fun a => Fin.ext (by
    match a with
    | ⟨0, _⟩ => exact rhs_gate_0 _ _
    | ⟨1, _⟩ => exact (rhs_gate_1 _ _).trans hk)
  rw [el, er]

/-! ## The messages block -/

/-- Entry (p, h) of the block of messages: the aggregated raw row against row h of W_msg, plus degree × b_msg[h]. -/
theorem msg_apply (P1 : Vec Ideal S2000x128 .f32) (P2 : Vec Ideal S2000x1 .f32) (P4 : Vec Ideal S1x128 .f32)
    (P5 : Vec Ideal S128x128 .f32) (p : Fin 2000) (h : Fin 128) :
    k0_pay2 (F := Ideal) P1 P2 P4 P5 (ix2 p h)
      = (∑ k : Fin 128, P1 (ix2 p k) * P5 (ix2 h k)) + P2 (ix2 p 0) * P4 (ix2 0 h) := by
  unfold k0_pay2
  refine (addf_apply _ _ _).trans ?_
  refine congrArg₂ (· + ·) ?_ ?_
  · refine (matmul_msg_apply _ _ p h).trans ?_
    rw [shapeCast_self]
    rfl
  · refine (mulf_apply _ _ _).trans ?_
    rw [shapeCast_self, shapeCast_self]
    exact congrArg₂ (· * ·) (broadcastTo_a1_ab_apply _ _ p h) (broadcastTo_1b_ab_apply _ _ p h)

/-! ## The gate pre-activations -/

/-- Entry (p, g) of the input-side pre-activations: the messages row plus the mean row, against row g of W_ih, plus b_ih[g]. -/
private theorem gi_apply (P1 : Vec Ideal S2000x128 .f32) (P2 : Vec Ideal S2000x1 .f32) (P3 : Vec Ideal S1x128 .f32)
    (P4 : Vec Ideal S1x128 .f32) (P5 : Vec Ideal S128x128 .f32) (P6 : Vec Ideal S384x128 .f32) (P7 : Vec Ideal S384 .f32)
    (p : Fin 2000) (g : Fin 384) :
    k0_pay3 (F := Ideal) P1 P2 P3 P4 P5 P6 P7 (ix2 p g)
      = Cert.GruLn.gi (row P3 0) (mat P6) (vec P7) (row (k0_pay2 (F := Ideal) P1 P2 P4 P5) p) g := by
  unfold k0_pay3 Cert.GruLn.gi
  refine (addf_apply _ _ _).trans ?_
  refine congrArg₂ (· + ·) ?_ ?_
  · refine (matmul_gate_apply _ _ p g).trans ?_
    refine Finset.sum_congr rfl fun k _ => ?_
    refine congrArg₂ (· * ·) ?_ rfl
    refine (addf_apply _ _ _).trans ?_
    refine congrArg₂ (· + ·) rfl ?_
    rw [shapeCast_self]
    exact broadcastTo_1b_ab_apply _ _ p k
  · exact (broadcastTo_1b_ab_apply _ _ p g).trans (shapeCast_a_1a_apply _ _ 0 g)

/-- Entry (p, g) of the hidden-side pre-activations: the node row against row g of W_hh, plus b_hh[g]. -/
private theorem gh_apply (P8 : Vec Ideal S2000x128 .f32) (P9 : Vec Ideal S384x128 .f32) (P10 : Vec Ideal S384 .f32)
    (p : Fin 2000) (g : Fin 384) :
    k0_pay4 (F := Ideal) P8 P9 P10 (ix2 p g) = Cert.GruLn.gh (mat P9) (vec P10) (row P8 p) g := by
  unfold k0_pay4 Cert.GruLn.gh
  refine (addf_apply _ _ _).trans ?_
  refine congrArg₂ (· + ·) ?_ ?_
  · exact matmul_gate_apply _ _ p g
  · exact (broadcastTo_1b_ab_apply _ _ p g).trans (shapeCast_a_1a_apply _ _ 0 g)

/-! ## The three 128-wide slices of a block of 384 pre-activations -/

private theorem sliceLo_apply (X : FVec Ideal S2000x384 .f32) (p : Fin 2000) (h : Fin 128) :
    extractStridedSlice S2000x128 ![0, 0] X slices_S2000x384_o0_0_S2000x128 (ix2 p h) = X (ix2 p (Cert.GruLn.gLo h)) :=
  slice2_axis1_apply 0 X _ p h (Cert.GruLn.gLo h) (by show h.val = 0 + h.val; omega)

private theorem sliceMid_apply (X : FVec Ideal S2000x384 .f32) (p : Fin 2000) (h : Fin 128) :
    extractStridedSlice S2000x128 ![0, 128] X slices_S2000x384_o0_128_S2000x128 (ix2 p h) = X (ix2 p (Cert.GruLn.gMid h)) :=
  slice2_axis1_apply 128 X _ p h (Cert.GruLn.gMid h) (by show h.val + 128 = 128 + h.val; omega)

private theorem sliceHi_apply (X : FVec Ideal S2000x384 .f32) (p : Fin 2000) (h : Fin 128) :
    extractStridedSlice S2000x128 ![0, 256] X slices_S2000x384_o0_256_S2000x128 (ix2 p h) = X (ix2 p (Cert.GruLn.gHi h)) :=
  slice2_axis1_apply 256 X _ p h (Cert.GruLn.gHi h) (by show h.val + 256 = 256 + h.val; omega)

/-! ## The body after the pre-activations, as functions of blocks

The stored block is a function of the node block `v0`, the messages block `v21`, the hidden-side pre-activations `v34`
and the three slices `v35`, `v36`, `v37` of the input-side ones: first the new hidden state, then its normalisation over
the 128 lanes. -/

/-- The reset gate of a block. -/
private def rBlk (v34 : FVec Ideal S2000x384 .f32) (v35 : FVec Ideal S2000x128 .f32) : FVec Ideal S2000x128 .f32 :=
  logistic (addf v35 (extractStridedSlice S2000x128 ![0, 0] v34 slices_S2000x384_o0_0_S2000x128))

/-- The update gate of a block. -/
private def zBlk (v34 : FVec Ideal S2000x384 .f32) (v36 : FVec Ideal S2000x128 .f32) : FVec Ideal S2000x128 .f32 :=
  logistic (addf v36 (extractStridedSlice S2000x128 ![0, 128] v34 slices_S2000x384_o0_128_S2000x128))

/-- The candidate state of a block. -/
private def cBlk (v34 : FVec Ideal S2000x384 .f32) (v35 v37 : FVec Ideal S2000x128 .f32) : FVec Ideal S2000x128 .f32 :=
  tanh (addf v37 (mulf (rBlk v34 v35) (extractStridedSlice S2000x128 ![0, 256] v34 slices_S2000x384_o0_256_S2000x128)))

/-- The new hidden state of a block: (1 - z) * c + z * x. -/
private def hBlk (v0 : Vec Ideal S2000x128 .f32) (v34 : FVec Ideal S2000x384 .f32) (v35 v36 v37 : FVec Ideal S2000x128 .f32) :
    FVec Ideal S2000x128 .f32 :=
  addf (mulf (subf (broadcast S2000x128 (Scalar.ofBits (F := Ideal) .f32 0x3F800000#32)) (zBlk v34 v36)) (cBlk v34 v35 v37))
    (mulf (zBlk v34 v36) v0)

/-- The column of row means of a block: the lane sum, kept as a column, divided by 128.0. -/
private def meanCol (H : FVec Ideal S2000x128 .f32) : FVec Ideal S2000x1 .f32 :=
  divf (shapeCast S2000x1 (multiReduction (F := Ideal) .add [1] S2000 H 0x00000000#32 reduces_S2000x128_S2000 (.inl rfl) rfl)
      shapeCasts_S2000_S2000x1) (broadcast S2000x1 (Scalar.ofBits (F := Ideal) .f32 0x43000000#32))

/-- A block with each row's mean taken off. -/
private def ctrBlk (H : FVec Ideal S2000x128 .f32) : FVec Ideal S2000x128 .f32 :=
  subf H (broadcastTo S2000x128 (meanCol H) broadcasts_S2000x1_S2000x128)

/-- The normalised block, scaled by `v64`, shifted by `v75`, plus the residual `v21`. -/
private def lnBlk (H v21 : FVec Ideal S2000x128 .f32) (v64 v75 : Vec Ideal S128 .f32) : FVec Ideal S2000x128 .f32 :=
  addf (addf (mulf (mulf (broadcastTo S2000x128 (shapeCast S1x128 v64 shapeCasts_S128_S1x128) broadcasts_S1x128_S2000x128) (ctrBlk H))
        (broadcastTo S2000x128 (rsqrt (addf (meanCol (mulf (ctrBlk H) (ctrBlk H)))
          (broadcast S2000x1 (Scalar.ofBits (F := Ideal) .f32 0x3727C5AC#32)))) broadcasts_S2000x1_S2000x128))
      (broadcastTo S2000x128 (shapeCast S1x128 v75 shapeCasts_S128_S1x128) broadcasts_S1x128_S2000x128)) v21

/-- The body's stored value is the normalisation of the new hidden state. -/
private theorem pay1_eq (v0 : Vec Ideal S2000x128 .f32) (v21 : FVec Ideal S2000x128 .f32) (v34 : FVec Ideal S2000x384 .f32)
    (v35 v36 v37 : FVec Ideal S2000x128 .f32) (v64 v75 : Vec Ideal S128 .f32) :
    k0_pay1 (F := Ideal) v0 v21 v34 v35 v36 v37 v64 v75 = lnBlk (hBlk v0 v34 v35 v36 v37) v21 v64 v75 := rfl

/-! ### One row of the new hidden state -/

section Hidden
open Cert.GruLn

variable (mean : Fin 128 → EReal) (wih whh : Fin 384 → Fin 128 → EReal) (bih bhh : Fin 384 → EReal) (x M : Fin 128 → EReal)

private theorem rBlk_apply (v34 : FVec Ideal S2000x384 .f32) (v35 : FVec Ideal S2000x128 .f32) (p : Fin 2000)
    (h34 : ∀ g, v34 (ix2 p g) = gh whh bhh x g) (h35 : ∀ h, v35 (ix2 p h) = gi mean wih bih M (gLo h)) (h : Fin 128) :
    rBlk v34 v35 (ix2 p h) = rgate mean wih whh bih bhh x M h := by
  show Ideal.logistic (v35 (ix2 p h) + extractStridedSlice S2000x128 ![0, 0] v34 slices_S2000x384_o0_0_S2000x128 (ix2 p h)) = _
  rw [sliceLo_apply, h35, h34]
  rfl

private theorem zBlk_apply (v34 : FVec Ideal S2000x384 .f32) (v36 : FVec Ideal S2000x128 .f32) (p : Fin 2000)
    (h34 : ∀ g, v34 (ix2 p g) = gh whh bhh x g) (h36 : ∀ h, v36 (ix2 p h) = gi mean wih bih M (gMid h)) (h : Fin 128) :
    zBlk v34 v36 (ix2 p h) = zgate mean wih whh bih bhh x M h := by
  show Ideal.logistic (v36 (ix2 p h) + extractStridedSlice S2000x128 ![0, 128] v34 slices_S2000x384_o0_128_S2000x128 (ix2 p h)) = _
  rw [sliceMid_apply, h36, h34]
  rfl

private theorem cBlk_apply (v34 : FVec Ideal S2000x384 .f32) (v35 v37 : FVec Ideal S2000x128 .f32) (p : Fin 2000)
    (h34 : ∀ g, v34 (ix2 p g) = gh whh bhh x g) (h35 : ∀ h, v35 (ix2 p h) = gi mean wih bih M (gLo h))
    (h37 : ∀ h, v37 (ix2 p h) = gi mean wih bih M (gHi h)) (h : Fin 128) :
    cBlk v34 v35 v37 (ix2 p h) = cand mean wih whh bih bhh x M h := by
  show Ideal.tanh (v37 (ix2 p h) + rBlk v34 v35 (ix2 p h)
    * extractStridedSlice S2000x128 ![0, 256] v34 slices_S2000x384_o0_256_S2000x128 (ix2 p h)) = _
  rw [sliceHi_apply, h37, h34, rBlk_apply mean wih whh bih bhh x M v34 v35 p h34 h35 h]
  rfl

private theorem hBlk_apply (v0 : Vec Ideal S2000x128 .f32) (v34 : FVec Ideal S2000x384 .f32)
    (v35 v36 v37 : FVec Ideal S2000x128 .f32) (p : Fin 2000) (h0 : ∀ h, v0 (ix2 p h) = x h)
    (h34 : ∀ g, v34 (ix2 p g) = gh whh bhh x g) (h35 : ∀ h, v35 (ix2 p h) = gi mean wih bih M (gLo h))
    (h36 : ∀ h, v36 (ix2 p h) = gi mean wih bih M (gMid h)) (h37 : ∀ h, v37 (ix2 p h) = gi mean wih bih M (gHi h))
    (h : Fin 128) :
    hBlk v0 v34 v35 v36 v37 (ix2 p h) = hnext mean wih whh bih bhh x M h := by
  show (Ideal.ofBits .f32 0x3F800000#32 - zBlk v34 v36 (ix2 p h)) * cBlk v34 v35 v37 (ix2 p h)
    + zBlk v34 v36 (ix2 p h) * v0 (ix2 p h) = _
  rw [zBlk_apply mean wih whh bih bhh x M v34 v36 p h34 h36 h, cBlk_apply mean wih whh bih bhh x M v34 v35 v37 p h34 h35 h37 h, h0]
  rfl

end Hidden

/-! ### One row of the normalisation -/

/-- Entry (p, u) of the column of means: the sum of row p over its 128 lanes, divided by 128.0. -/
private theorem meanCol_apply (H : FVec Ideal S2000x128 .f32) (p : Fin 2000) (u : Fin 1) :
    meanCol H (ix2 p u) = Ideal.div (∑ h : Fin 128, H (ix2 p h)) Cert.GruLn.c128 := by
  unfold meanCol
  refine (divf_apply _ _ _).trans ?_
  refine congrArg₂ Ideal.div ?_ rfl
  refine (shapeCast_a_a1_apply _ _ p u).trans ?_
  refine (Ideal.multiReduction_add_single H 0x00000000#32 reduces_S2000x128_S2000 (.inl rfl) rfl (ix1 p)).trans ?_
  refine Finset.sum_congr rfl fun h _ => ?_
  refine congrArg H (funext fun a => Fin.ext ?_)
  match a with
  | ⟨0, _⟩ => rfl
  | ⟨1, _⟩ => rfl

/-- A row of the centred block, from the row `hn` of the block. -/
private theorem ctrBlk_apply (H : FVec Ideal S2000x128 .f32) (p : Fin 2000) (hn : Fin 128 → EReal)
    (hH : ∀ h, H (ix2 p h) = hn h) (h : Fin 128) :
    ctrBlk H (ix2 p h) = hn h - Ideal.div (∑ k : Fin 128, hn k) Cert.GruLn.c128 := by
  unfold ctrBlk
  refine (subf_apply _ _ _).trans ?_
  refine congrArg₂ (· - ·) (hH h) ?_
  refine (broadcastTo_a1_ab_apply _ _ p h).trans ?_
  refine (meanCol_apply H p 0).trans ?_
  exact congrArg (fun s => Ideal.div s Cert.GruLn.c128) (Finset.sum_congr rfl fun k _ => hH k)

/-- A row of the normalised, scaled, shifted block plus the residual, from the row `hn` of the block. -/
private theorem lnBlk_apply (H v21 : FVec Ideal S2000x128 .f32) (v64 v75 : Vec Ideal S128 .f32) (p : Fin 2000)
    (hn gam bet M : Fin 128 → EReal) (hH : ∀ h, H (ix2 p h) = hn h) (h21 : ∀ h, v21 (ix2 p h) = M h)
    (h64 : ∀ h, v64 (ix1 h) = gam h) (h75 : ∀ h, v75 (ix1 h) = bet h) (q : Fin 128) :
    lnBlk H v21 v64 v75 (ix2 p q)
      = gam q * (hn q - Ideal.div (∑ k : Fin 128, hn k) Cert.GruLn.c128)
          * Ideal.rsqrt (Ideal.div (∑ k : Fin 128, (hn k - Ideal.div (∑ k : Fin 128, hn k) Cert.GruLn.c128)
              * (hn k - Ideal.div (∑ k : Fin 128, hn k) Cert.GruLn.c128)) Cert.GruLn.c128 + Cert.GruLn.eps)
          + bet q + M q := by
  unfold lnBlk
  refine (addf_apply _ _ _).trans ?_
  refine congrArg₂ (· + ·) ?_ (h21 q)
  refine (addf_apply _ _ _).trans ?_
  refine congrArg₂ (· + ·) ?_
    ((broadcastTo_1b_ab_apply _ _ p q).trans ((shapeCast_a_1a_apply _ _ 0 q).trans (h75 q)))
  refine (mulf_apply _ _ _).trans ?_
  refine congrArg₂ (· * ·) ?_ ?_
  · refine (mulf_apply _ _ _).trans ?_
    exact congrArg₂ (· * ·) ((broadcastTo_1b_ab_apply _ _ p q).trans ((shapeCast_a_1a_apply _ _ 0 q).trans (h64 q)))
      (ctrBlk_apply H p hn hH q)
  · refine (broadcastTo_a1_ab_apply _ _ p q).trans ?_
    refine congrArg Ideal.rsqrt ?_
    refine congrArg₂ (· + ·) ?_ rfl
    refine (meanCol_apply _ p 0).trans ?_
    refine congrArg (fun s => Ideal.div s Cert.GruLn.c128) (Finset.sum_congr rfl fun k _ => ?_)
    refine (mulf_apply _ _ _).trans ?_
    exact congrArg₂ (· * ·) (ctrBlk_apply H p hn hH k) (ctrBlk_apply H p hn hH k)

/-! ## The stored value -/

/-- The stored value at row p, lane q of the output block. P8 the node block, P1 the aggregated raw rows, P2 the degrees,
    P3 the mean row, P4 the bias row, P5 W_msg, P6 / P9 the input / hidden gate weights, P7 / P10 their biases, P0 / P11 the
    normalisation's scale and shift. -/
theorem out_apply (P0 : Vec Ideal S128 .f32) (P1 : Vec Ideal S2000x128 .f32) (P2 : Vec Ideal S2000x1 .f32)
    (P3 : Vec Ideal S1x128 .f32) (P4 : Vec Ideal S1x128 .f32) (P5 : Vec Ideal S128x128 .f32) (P6 : Vec Ideal S384x128 .f32)
    (P7 : Vec Ideal S384 .f32) (P8 : Vec Ideal S2000x128 .f32) (P9 : Vec Ideal S384x128 .f32) (P10 : Vec Ideal S384 .f32)
    (P11 : Vec Ideal S128 .f32) (p : Fin 2000) (q : Fin 128) :
    k0_pay1 (F := Ideal) P8 (k0_pay2 P1 P2 P4 P5) (k0_pay4 P8 P9 P10) (k0_pay5 P1 P2 P3 P4 P5 P6 P7)
        (k0_pay6 P1 P2 P3 P4 P5 P6 P7) (k0_pay7 P1 P2 P3 P4 P5 P6 P7) P0 P11 (ix2 p q)
      = Cert.GruLn.out (row P3 0) (mat P6) (mat P9) (vec P7) (vec P10) (vec P0) (vec P11)
          (row P8 p) (row (k0_pay2 (F := Ideal) P1 P2 P4 P5) p) q := by
  rw [pay1_eq]
  refine (lnBlk_apply _ _ P0 P11 p
    (Cert.GruLn.hnext (row P3 0) (mat P6) (mat P9) (vec P7) (vec P10) (row P8 p) (row (k0_pay2 (F := Ideal) P1 P2 P4 P5) p))
    (vec P0) (vec P11) (row (k0_pay2 (F := Ideal) P1 P2 P4 P5) p)
    (hBlk_apply (row P3 0) (mat P6) (mat P9) (vec P7) (vec P10) (row P8 p) (row (k0_pay2 (F := Ideal) P1 P2 P4 P5) p)
      P8 _ _ _ _ p (fun _ => rfl) (fun g => gh_apply P8 P9 P10 p g)
      (fun h => by unfold k0_pay5; exact (sliceLo_apply _ p h).trans (gi_apply P1 P2 P3 P4 P5 P6 P7 p _))
      (fun h => by unfold k0_pay6; exact (sliceMid_apply _ p h).trans (gi_apply P1 P2 P3 P4 P5 P6 P7 p _))
      (fun h => by unfold k0_pay7; exact (sliceHi_apply _ p h).trans (gi_apply P1 P2 P3 P4 P5 P6 P7 p _)))
    (fun _ => rfl) (fun _ => rfl) (fun _ => rfl) q).trans ?_
  rfl

end Cert.KernelPay

end
-- ==== Proof.Blocks.lean ====
/-
  From blocks to the array. Because a row of the result is a function of the same row of the inputs (Spec.lean), what
  point t writes back is block t of ONE function of the arrays the region finds, and the 25 blocks of 2000 rows tile the
  50000 rows of the result: after the run the result array IS that function.
-/
import proofs.«412600_j32890859553196_3_alg».proof.Proof.BlocksReadsA
import proofs.«412600_j32890859553196_3_alg».proof.Proof.BlocksReadsB
import proofs.«412600_j32890859553196_3_alg».proof.Proof.BlocksReadsC
import proofs.«412600_j32890859553196_3_alg».proof.Proof.KernelPay

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GruLn (row mat vec)

variable (m : (ℓ : Loc nD τ sig) → Buf (Elt Idealize.ShloMosaic.Ideal) ℓ) (ρ : Dev nD → PrngReg)

/-! ## What a point writes back -/

/-- The message row the body forms for row p of block t is the message row of node 2000 t + p. -/
theorem msg_blk (c : Dev nD) (t : Fin cfg0.N) (p : Fin 2000) :
    row (k0_pay2 (F := Idealize.ShloMosaic.Ideal) (iblk m c 1 t) (iblk m c 2 t) (iblk m c 9 t) (iblk m c 4 t)) p = msgRow m c (rowOf t p) := by
  funext h
  refine (Cert.KernelPay.msg_apply (iblk m c 1 t) (iblk m c 2 t) (iblk m c 9 t) (iblk m c 4 t) p h).trans ?_
  exact congrArg₂ (· + ·)
    (Finset.sum_congr rfl fun k _ => congrArg₂ (· * ·) (agg_blk m c t p k) (congrFun (wmsg_blk m c t) (ix2 h k)))
    (congrArg₂ (· * ·) (deg_blk m c t p) (congrFun (bmsg_blk m c t) (ix2 0 h)))

/-- WHAT POINT t WRITES BACK is block t of `result`. -/
theorem flushed_eq (c : Dev nD) (t : Fin cfg0.N) :
    (dats m 0 c).flushed 12 t = ((cfg0.win 12).blk t).view.read (Elt Idealize.ShloMosaic.Ideal) (result m c) := by
  rw [Cert.KernelIdeal.Value.flushed12]
  unfold out0_12
  rw [View.canon_unit_zero hz2]
  simp only [View.ld_unit_zero (S := S2000x128) hz2, View.ld_unit_zero (S := S2000x1) hz2, View.ld_unit_zero (S := S1x128) hz2,
    View.ld_unit_zero (S := S128x128) hz2, View.ld_unit_zero (S := S384x128) hz2, View.ld_unit_zero (S := S384) hz1,
    View.ld_unit_zero (S := S128) hz1]
  refine funext fun (j : S2000x128.Idx) => ?_
  obtain ⟨p, q, rfl⟩ : ∃ (p : Fin 2000) (q : Fin 128), j = ix2 p q := ⟨j 0, j 1, eq_ix2 j⟩
  show k0_pay1 (F := Idealize.ShloMosaic.Ideal) (iblk m c 0 t) (k0_pay2 (iblk m c 1 t) (iblk m c 2 t) (iblk m c 9 t) (iblk m c 4 t))
      (k0_pay4 (iblk m c 0 t) (iblk m c 6 t) (iblk m c 8 t))
      (k0_pay5 (iblk m c 1 t) (iblk m c 2 t) (iblk m c 3 t) (iblk m c 9 t) (iblk m c 4 t) (iblk m c 5 t) (iblk m c 7 t))
      (k0_pay6 (iblk m c 1 t) (iblk m c 2 t) (iblk m c 3 t) (iblk m c 9 t) (iblk m c 4 t) (iblk m c 5 t) (iblk m c 7 t))
      (k0_pay7 (iblk m c 1 t) (iblk m c 2 t) (iblk m c 3 t) (iblk m c 9 t) (iblk m c 4 t) (iblk m c 5 t) (iblk m c 7 t))
      (iblk m c 10 t) (iblk m c 11 t) (ix2 p q)
    = result m c (((cfg0.win 12).blk t).view.emb (ix2 p q))
  have h12 : ((cfg0.win 12).blk t).view.emb (ix2 p q) = ix2 (rowOf t p) q := by
    have e := idx_facts t
    funext a; apply Fin.ext
    match a with
    | ⟨0, _⟩ => show win0_12.index t (0 : Fin 2) * 2000 + 1 * p.val = 2000 * t.val + p.val; omega
    | ⟨1, _⟩ => show win0_12.index t (1 : Fin 2) * 128 + 1 * q.val = q.val; omega
  rw [h12]
  refine (Cert.KernelPay.out_apply (iblk m c 10 t) (iblk m c 1 t) (iblk m c 2 t) (iblk m c 3 t) (iblk m c 9 t) (iblk m c 4 t)
    (iblk m c 5 t) (iblk m c 7 t) (iblk m c 0 t) (iblk m c 6 t) (iblk m c 8 t) (iblk m c 11 t) p q).trans ?_
  rw [result_ix2]
  exact out_congr (congrArg (fun A : Vec Idealize.ShloMosaic.Ideal S1x128 .f32 => row A 0) (mean_blk m c t))
    (congrArg (fun A : Vec Idealize.ShloMosaic.Ideal S384x128 .f32 => mat A) (wih_blk m c t))
    (congrArg (fun A : Vec Idealize.ShloMosaic.Ideal S384x128 .f32 => mat A) (whh_blk m c t))
    (congrArg (fun A : Vec Idealize.ShloMosaic.Ideal S384 .f32 => vec A) (bih_blk m c t))
    (congrArg (fun A : Vec Idealize.ShloMosaic.Ideal S384 .f32 => vec A) (bhh_blk m c t))
    (congrArg (fun A : Vec Idealize.ShloMosaic.Ideal S128 .f32 => vec A) (gam_blk m c t))
    (congrArg (fun A : Vec Idealize.ShloMosaic.Ideal S128 .f32 => vec A) (bet_blk m c t))
    (funext fun k => nodes_blk m c t p k) (msg_blk m c t p) q

/-! ## The blocks tile the result -/

/-- An index of the result is in point t's block iff its row is in [2000 t, 2000 t + 2000). -/
theorem mem_blk (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v15).slice (win0_12.rect t)).set ↔ _
  rw [View.set_slice_whole, Rect.mem_set_unit]
  exact Iff.rfl

/-- Every index of the result lies in the block of the point its row falls in. -/
theorem cover (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  have hN : (i 0).val / 2000 < cfg0.N := by rw [show cfg0.N = 25 from N_0]; omega
  refine ⟨⟨(i 0).val / 2000, hN⟩, flush0_12 _, ?_⟩
  rw [mem_blk]
  have e := idx_facts ⟨(i 0).val / 2000, hN⟩
  intro a
  match a with
  | ⟨0, _⟩ =>
    show win0_12.index ⟨(i 0).val / 2000, hN⟩ (0 : Fin 2) * 2000 ≤ (i 0).val ∧ (i 0).val < win0_12.index ⟨(i 0).val / 2000, hN⟩ (0 : Fin 2) * 2000 + 2000
    have e0 : win0_12.index ⟨(i 0).val / 2000, hN⟩ (0 : Fin 2) = (i 0).val / 2000 := e.2.2.2.2.2.2.2.2.2.2.2.2.2.2.2.2.2.2.2.2.1
    omega
  | ⟨1, _⟩ =>
    show win0_12.index ⟨(i 0).val / 2000, hN⟩ (1 : Fin 2) * 128 ≤ (i 1).val ∧ (i 1).val < win0_12.index ⟨(i 0).val / 2000, hN⟩ (1 : Fin 2) * 128 + 128
    have e1 : win0_12.index ⟨(i 0).val / 2000, hN⟩ (1 : Fin 2) = 0 := e.2.2.2.2.2.2.2.2.2.2.2.2.2.2.2.2.2.2.2.2.2
    omega

/-- THE RESULT ARRAY after the run is `result`. -/
theorem final (c : Dev nD) : (dats m 0 c).arrAt 12 cfg0.N = result m c :=
  (dats m 0 c).arrAt_eq_of_cover 12 (result m c) (fun t _ => flushed_eq m c t) cover

/-! ## The run, read -/

/-- The kernel's run: every weakly fair execution terminates with the result buffer at `result`, the arguments unchanged. -/
theorem run : θ_run defs (onTc (τ := τ) (main (F := Idealize.ShloMosaic.Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelBlocks

end
-- ==== Proof.RefRead.lean ====
/-
  The reference, read one node at a time: its result at (n, q) is the row function of Spec.lean applied to row n of the node
  features and row n of ITS messages array (the scatter-add of the projected edge rows), with the column mean of the
  features; and an edge's projected row is the gathered source row times W_msgᵀ plus the bias.
-/
import proofs.«412600_j32890859553196_3_alg».proof.Proof.Gen.ReferenceIdeal.Read
import proofs.«412600_j32890859553196_3_alg».proof.Proof.Spec

noncomputable section

namespace Cert.RefRead

open Cert.ReferenceIdeal Cert.ReferenceIdeal.Gen Cert.ReferenceIdeal.Read Idealize.ShloMosaic Idealize.ShloMosaic.ValueIdx
open Cert.GruLn (row mat vec)

/-- Entry (e, h) of the edge messages: the gathered source row against row h of W_msg, plus b_msg[h]. -/
theorem upd_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x9 : (⟨S600000, .i32⟩ : BufTy).Contents (Elt Ideal))
    (e : Fin 600000) (h : Fin 128) :
    val_main_v11 (F := Ideal) x0 x1 x2 x9 (ix2 e h)
      = (∑ k : Fin 128, val_main_v6 (F := Ideal) x0 x9 (ix2 e k) * x1 (ix2 h k)) + x2 (ix1 h) := by
  -- the bias is read through its two broadcasts at position h
  have eb : idx_main_v9 (idx_main_v10 (ix2 e h)) = ix1 h :=
    funext fun a => Fin.ext (by match a with | ⟨0, _⟩ => rfl)
  rw [val_main_v11_apply, val_main_v8_apply, val_main_v10_apply, val_main_v9_apply, eb]
  simp only [Ideal.addf_def]
  refine congrArg (· + x2 (ix1 h)) (Finset.sum_congr rfl fun k _ => ?_)
  -- the contraction runs over column k of the gathered row and, through the transpose, over column k of row h of W_msg
  have el : lidx_main_v8 (ix2 e h) k = ix2 e k :=
    funext fun a => Fin.ext (by match a with | ⟨0, _⟩ => rfl | ⟨1, _⟩ => rfl)
  have er : idx_main_v7 (ridx_main_v8 (ix2 e h) k) = ix2 h k :=
    funext fun a => Fin.ext (by match a with | ⟨0, _⟩ => rfl | ⟨1, _⟩ => rfl)
  rw [val_main_v7_apply, el, er]

/-! ## The pieces of one row, bottom up -/

section Pieces

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 x4 : (⟨S384x128, .f32⟩ : BufTy).Contents (Elt Ideal))
  (x5 x6 : (⟨S384, .f32⟩ : BufTy).Contents (Elt Ideal)) (x7 x8 : (⟨S128, .f32⟩ : BufTy).Contents (Elt Ideal))
  (x9 x10 : (⟨S600000, .i32⟩ : BufTy).Contents (Elt Ideal))

/-- The broadcast column mean at (n, k) is the sum of column k over all nodes, divided by 50000.0. -/
private theorem mean_apply (n : Fin 50000) (k : Fin 128) :
    val_main_v19 (F := Ideal) x0 (ix2 n k) = Cert.GruLn.colMean x0 k := by
  have e1 : idx_main_v18 (idx_main_v19 (ix2 n k)) = ix1 k :=
    funext fun a => Fin.ext (by match a with | ⟨0, _⟩ => rfl)
  rw [val_main_v19_apply, val_main_v18_apply, e1, val_main_v17_apply, val_main_v15_apply, val_main_v16_apply,
    val_main_cst_1_apply, val_main_cst_2_apply]
  simp only [Ideal.hostDivf_def, Ideal.ofBits_def, Ideal.ofBits_zero_f32, zero_add]
  unfold Cert.GruLn.colMean
  refine congrArg (fun s => Ideal.div s Cert.GruLn.c50000) (Finset.sum_congr rfl fun m _ => ?_)
  exact congrArg x0 (funext fun a => Fin.ext (by match a with | ⟨0, _⟩ => rfl | ⟨1, _⟩ => rfl))

/-- The input-side pre-activation at (n, g): (messages row + mean) against row g of W_ih, plus b_ih[g]. -/
private theorem gi_apply (n : Fin 50000) (g : Fin 384) :
    val_main_v25 (F := Ideal) x0 x1 x2 x3 x5 x9 x10 (ix2 n g)
      = Cert.GruLn.gi (Cert.GruLn.colMean x0) (mat x3) (vec x5) (row (val_main_v14 (F := Ideal) x0 x1 x2 x9 x10) n) g := by
  have eb : idx_main_v23 (idx_main_v24 (ix2 n g)) = ix1 g :=
    funext fun a => Fin.ext (by match a with | ⟨0, _⟩ => rfl)
  rw [val_main_v25_apply, val_main_v22_apply, val_main_v24_apply, val_main_v23_apply, eb]
  simp only [Ideal.addf_def]
  unfold Cert.GruLn.gi
  refine congrArg (· + x5 (ix1 g)) (Finset.sum_congr rfl fun k _ => ?_)
  have el : lidx_main_v22 (ix2 n g) k = ix2 n k :=
    funext fun a => Fin.ext (by match a with | ⟨0, _⟩ => rfl | ⟨1, _⟩ => rfl)
  have er : idx_main_v21 (ridx_main_v22 (ix2 n g) k) = ix2 g k :=
    funext fun a => Fin.ext (by match a with | ⟨0, _⟩ => rfl | ⟨1, _⟩ => rfl)
  rw [val_main_v21_apply, el, er, val_main_v20_apply, mean_apply]
  simp only [Ideal.addf_def]

/-- The hidden-side pre-activation at (n, g): the node's row against row g of W_hh, plus b_hh[g]. -/
private theorem gh_apply (n : Fin 50000) (g : Fin 384) :
    val_main_v30 (F := Ideal) x0 x4 x6 (ix2 n g) = Cert.GruLn.gh (mat x4) (vec x6) (row x0 n) g := by
  have eb : idx_main_v28 (idx_main_v29 (ix2 n g)) = ix1 g :=
    funext fun a => Fin.ext (by match a with | ⟨0, _⟩ => rfl)
  rw [val_main_v30_apply, val_main_v27_apply, val_main_v29_apply, val_main_v28_apply, eb]
  simp only [Ideal.addf_def]
  unfold Cert.GruLn.gh
  refine congrArg (· + x6 (ix1 g)) (Finset.sum_congr rfl fun k _ => ?_)
  have el : lidx_main_v27 (ix2 n g) k = ix2 n k :=
    funext fun a => Fin.ext (by match a with | ⟨0, _⟩ => rfl | ⟨1, _⟩ => rfl)
  have er : idx_main_v26 (ridx_main_v27 (ix2 n g) k) = ix2 g k :=
    funext fun a => Fin.ext (by match a with | ⟨0, _⟩ => rfl | ⟨1, _⟩ => rfl)
  rw [val_main_v26_apply, el, er]

/-- Lane h of the reset gate's slice is gate lane h of the 384. -/
private theorem idx_lo (n : Fin 50000) (h : Fin 128) :
    idx_main_v31 (ix2 n h) = ix2 n (Cert.GruLn.gLo h) ∧ idx_main_v34 (ix2 n h) = ix2 n (Cert.GruLn.gLo h) :=
  ⟨funext fun a => Fin.ext (by match a with | ⟨0, _⟩ => rfl | ⟨1, _⟩ => rfl),
   funext fun a => Fin.ext (by match a with | ⟨0, _⟩ => rfl | ⟨1, _⟩ => rfl)⟩

/-- Lane h of the update gate's slice is gate lane 128 + h. -/
private theorem idx_mid (n : Fin 50000) (h : Fin 128) :
    idx_main_v32 (ix2 n h) = ix2 n (Cert.GruLn.gMid h) ∧ idx_main_v35 (ix2 n h) = ix2 n (Cert.GruLn.gMid h) :=
  ⟨funext fun a => Fin.ext (by match a with | ⟨0, _⟩ => rfl | ⟨1, _⟩ => exact Nat.add_comm 128 h.val),
   funext fun a => Fin.ext (by match a with | ⟨0, _⟩ => rfl | ⟨1, _⟩ => exact Nat.add_comm 128 h.val)⟩

/-- Lane h of the candidate's slice is gate lane 256 + h. -/
private theorem idx_hi (n : Fin 50000) (h : Fin 128) :
    idx_main_v33 (ix2 n h) = ix2 n (Cert.GruLn.gHi h) ∧ idx_main_v36 (ix2 n h) = ix2 n (Cert.GruLn.gHi h) :=
  ⟨funext fun a => Fin.ext (by match a with | ⟨0, _⟩ => rfl | ⟨1, _⟩ => exact Nat.add_comm 256 h.val),
   funext fun a => Fin.ext (by match a with | ⟨0, _⟩ => rfl | ⟨1, _⟩ => exact Nat.add_comm 256 h.val)⟩

/-- The reset gate at (n, h): the reference spells the logistic function as 1 / (1 + exp (-v)). -/
private theorem r_apply (n : Fin 50000) (h : Fin 128) :
    val_main_v43 (F := Ideal) x0 x1 x2 x3 x4 x5 x6 x9 x10 (ix2 n h)
      = Cert.GruLn.rgate (Cert.GruLn.colMean x0) (mat x3) (mat x4) (vec x5) (vec x6) (row x0 n)
          (row (val_main_v14 (F := Ideal) x0 x1 x2 x9 x10) n) h := by
  rw [val_main_v43_apply, val_main_v42_apply, val_main_cst_4_apply, val_main_v41_apply, val_main_v40_apply,
    val_main_cst_3_apply, val_main_v39_apply, val_main_v38_apply, val_main_v37_apply, val_main_v31_apply,
    val_main_v34_apply, (idx_lo n h).1, (idx_lo n h).2, gi_apply, gh_apply]
  simp only [Ideal.hostDivf_def, Ideal.ofBits_def, Ideal.addf_def, Ideal.hostUnary_exp_def, Ideal.hostNegf_def,
    Ideal.negf_def]
  exact Cert.GruLn.logistic_spelled _

/-- The update gate at (n, h). -/
private theorem z_apply (n : Fin 50000) (h : Fin 128) :
    val_main_v50 (F := Ideal) x0 x1 x2 x3 x4 x5 x6 x9 x10 (ix2 n h)
      = Cert.GruLn.zgate (Cert.GruLn.colMean x0) (mat x3) (mat x4) (vec x5) (vec x6) (row x0 n)
          (row (val_main_v14 (F := Ideal) x0 x1 x2 x9 x10) n) h := by
  rw [val_main_v50_apply, val_main_v49_apply, val_main_cst_6_apply, val_main_v48_apply, val_main_v47_apply,
    val_main_cst_5_apply, val_main_v46_apply, val_main_v45_apply, val_main_v44_apply, val_main_v32_apply,
    val_main_v35_apply, (idx_mid n h).1, (idx_mid n h).2, gi_apply, gh_apply]
  simp only [Ideal.hostDivf_def, Ideal.ofBits_def, Ideal.addf_def, Ideal.hostUnary_exp_def, Ideal.hostNegf_def,
    Ideal.negf_def]
  exact Cert.GruLn.logistic_spelled _

/-- The candidate state at (n, h). -/
private theorem cand_apply (n : Fin 50000) (h : Fin 128) :
    val_main_v53 (F := Ideal) x0 x1 x2 x3 x4 x5 x6 x9 x10 (ix2 n h)
      = Cert.GruLn.cand (Cert.GruLn.colMean x0) (mat x3) (mat x4) (vec x5) (vec x6) (row x0 n)
          (row (val_main_v14 (F := Ideal) x0 x1 x2 x9 x10) n) h := by
  rw [val_main_v53_apply, val_main_v52_apply, val_main_v33_apply, val_main_v51_apply, val_main_v36_apply,
    (idx_hi n h).1, (idx_hi n h).2, gi_apply, gh_apply, r_apply]
  simp only [Ideal.addf_def, Ideal.mulf_def, Ideal.hostUnary_tanh_def]
  rfl

/-- The new hidden state at (n, h): (1 - z) * candidate + z * x. -/
private theorem hnext_apply (n : Fin 50000) (h : Fin 128) :
    val_main_v58 (F := Ideal) x0 x1 x2 x3 x4 x5 x6 x9 x10 (ix2 n h)
      = Cert.GruLn.hnext (Cert.GruLn.colMean x0) (mat x3) (mat x4) (vec x5) (vec x6) (row x0 n)
          (row (val_main_v14 (F := Ideal) x0 x1 x2 x9 x10) n) h := by
  rw [val_main_v58_apply, val_main_v56_apply, val_main_v55_apply, val_main_v54_apply, val_main_cst_7_apply,
    val_main_v57_apply, z_apply, cand_apply]
  simp only [Ideal.addf_def, Ideal.mulf_def, Ideal.subf_def, Ideal.ofBits_def]
  rfl

/-- The row mean at node n: the sum of the new state over its 128 lanes, divided by 128.0. -/
private theorem mu_apply (n : Fin 50000) :
    val_main_v62 (F := Ideal) x0 x1 x2 x3 x4 x5 x6 x9 x10 (ix2 n (0 : Fin 1))
      = Cert.GruLn.mu (Cert.GruLn.colMean x0) (mat x3) (mat x4) (vec x5) (vec x6) (row x0 n)
          (row (val_main_v14 (F := Ideal) x0 x1 x2 x9 x10) n) := by
  have e1 : idx_main_v60 (ix2 n (0 : Fin 1)) = ix1 n :=
    funext fun a => Fin.ext (by match a with | ⟨0, _⟩ => rfl)
  rw [val_main_v62_apply, val_main_v60_apply, e1, val_main_v59_apply, val_main_cst_8_apply, val_main_v61_apply,
    val_main_cst_9_apply]
  simp only [Ideal.hostDivf_def, Ideal.ofBits_def, Ideal.ofBits_zero_f32, zero_add]
  unfold Cert.GruLn.mu
  refine congrArg (fun s => Ideal.div s Cert.GruLn.c128) (Finset.sum_congr rfl fun k _ => ?_)
  have e2 : idx_main_v59 (ix1 n) k = ix2 n k :=
    funext fun a => Fin.ext (by match a with | ⟨0, _⟩ => rfl | ⟨1, _⟩ => rfl)
  rw [e2, hnext_apply]

/-- The row variance at node n: the sum of the squared deviations over the 128 lanes, divided by 128.0. -/
private theorem var_apply (n : Fin 50000) :
    val_main_v69 (F := Ideal) x0 x1 x2 x3 x4 x5 x6 x9 x10 (ix2 n (0 : Fin 1))
      = Cert.GruLn.var (Cert.GruLn.colMean x0) (mat x3) (mat x4) (vec x5) (vec x6) (row x0 n)
          (row (val_main_v14 (F := Ideal) x0 x1 x2 x9 x10) n) := by
  have e1 : idx_main_v67 (ix2 n (0 : Fin 1)) = ix1 n :=
    funext fun a => Fin.ext (by match a with | ⟨0, _⟩ => rfl)
  rw [val_main_v69_apply, val_main_v67_apply, e1, val_main_v66_apply, val_main_cst_10_apply, val_main_v68_apply,
    val_main_cst_11_apply]
  simp only [Ideal.hostDivf_def, Ideal.ofBits_def, Ideal.ofBits_zero_f32, zero_add]
  unfold Cert.GruLn.var
  refine congrArg (fun s => Ideal.div s Cert.GruLn.c128) (Finset.sum_congr rfl fun k _ => ?_)
  have e2 : idx_main_v66 (ix1 n) k = ix2 n k :=
    funext fun a => Fin.ext (by match a with | ⟨0, _⟩ => rfl | ⟨1, _⟩ => rfl)
  have e3 : idx_main_v63 (ix2 n k) = ix2 n (0 : Fin 1) :=
    funext fun a => Fin.ext (by match a with | ⟨0, _⟩ => rfl | ⟨1, _⟩ => rfl)
  rw [e2, val_main_v65_apply, val_main_v64_apply, val_main_v63_apply, e3, hnext_apply, mu_apply]
  simp only [Ideal.mulf_def, Ideal.subf_def]

end Pieces

/-- The reference's result at node n, lane q. -/
theorem result_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x3 x4 : (⟨S384x128, .f32⟩ : BufTy).Contents (Elt Ideal))
    (x5 x6 : (⟨S384, .f32⟩ : BufTy).Contents (Elt Ideal)) (x7 x8 : (⟨S128, .f32⟩ : BufTy).Contents (Elt Ideal))
    (x9 x10 : (⟨S600000, .i32⟩ : BufTy).Contents (Elt Ideal)) (n : Fin 50000) (q : Fin 128) :
    val_main_v83 (F := Ideal) x0 x1 x2 x3 x4 x5 x6 x7 x8 x9 x10 (ix2 n q)
      = Cert.GruLn.out (Cert.GruLn.colMean x0) (mat x3) (mat x4) (vec x5) (vec x6) (vec x7) (vec x8)
          (row x0 n) (row (val_main_v14 (F := Ideal) x0 x1 x2 x9 x10) n) q := by
  -- the scale and the shift are read through their two broadcasts at lane q; the moments through theirs at (n, 0)
  have eg : idx_main_v72 (idx_main_v73 (ix2 n q)) = ix1 q :=
    funext fun a => Fin.ext (by match a with | ⟨0, _⟩ => rfl)
  have eb : idx_main_v80 (idx_main_v81 (ix2 n q)) = ix1 q :=
    funext fun a => Fin.ext (by match a with | ⟨0, _⟩ => rfl)
  have em : idx_main_v70 (ix2 n q) = ix2 n (0 : Fin 1) :=
    funext fun a => Fin.ext (by match a with | ⟨0, _⟩ => rfl | ⟨1, _⟩ => rfl)
  have ev : idx_main_v78 (ix2 n q) = ix2 n (0 : Fin 1) :=
    funext fun a => Fin.ext (by match a with | ⟨0, _⟩ => rfl | ⟨1, _⟩ => rfl)
  rw [val_main_v83_apply, val_main_v82_apply, val_main_v79_apply, val_main_v74_apply, val_main_v73_apply,
    val_main_v72_apply, eg, val_main_v71_apply, val_main_v70_apply, em, val_main_v78_apply, ev, val_main_v77_apply,
    val_main_v76_apply, val_main_v75_apply, val_main_cst_12_apply, val_main_v81_apply, val_main_v80_apply, eb,
    hnext_apply, mu_apply, var_apply]
  simp only [Ideal.addf_def, Ideal.mulf_def, Ideal.subf_def, Ideal.ofBits_def, Ideal.hostUnary_rsqrt_def]
  rfl

end Cert.RefRead

end
-- ==== Proof.PreFacts.lean ====
/-
  What the precondition says, decoded: the three float inputs the message law needs are finite (each entry is a real
  number), and every source index lies inside the node table.
-/
import proofs.«412600_j32890859553196_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

variable [Cert.Pre_finite_inputs.Facts]

/-- The rank-0 shape has exactly one index. -/
private instance : Subsingleton S_.Idx := ⟨fun a b => funext fun d => d.elim0⟩

/-- The 32-bit pattern 0x7F800000 is +∞. -/
private theorem top_bits : Ideal.ofBits .f32 0x7F800000#32 = (⊤ : EReal) := by simp [Ideal.ofBits, Ideal.ieee]

/-- An extended real whose absolute value max x (-x) is below +∞ is a real number: the two infinities have |x| = +∞. -/
private theorem real_of_abs_lt_top (x : EReal) (h : max x (-x) < ⊤) : ∃ r : ℝ, x = (r : EReal) := by
  induction x using EReal.rec with
  | bot => simp at h
  | coe r => exact ⟨r, rfl⟩
  | top => simp at h

/-- One float conjunct: if "all (|x| < +∞)" over an array x is 1, every entry of x is a real number. -/
private theorem finite_of_all {s : Shape} {axes : List (Fin s.rank)} (x : FVec Ideal s .f32)
    (bc : S_.BroadcastsInDim s (![] : Fin 0 → Fin s.rank)) (red : s.ReducesTo axes S_) (h0 : 0 < S_.numel)
    (e : Host.reduce IntOp.andi (cmpf .olt (Host.absf x) (broadcastInDim s ![] bc (constant S_ .f32 0x7F800000#32)))
        (constantI S_ 1 1#1) red h0 ValueIdx.ix0 = 1#1) (i : s.Idx) : ∃ r : ℝ, x i = (r : EReal) := by
  have h1 := Host.reduce_andi_all _ _ red h0 _ e i
  change Ideal.cmp .olt (max (x i) (-(x i))) (Ideal.ofBits .f32 0x7F800000#32) = 1#1 at h1
  rw [top_bits] at h1
  apply real_of_abs_lt_top
  unfold Ideal.cmp at h1
  by_contra hn
  simp [hn] at h1

/-- The lower index conjunct: if "all (x ≥ 0)" (signed) over an array of words is 1, every word is nonnegative. -/
private theorem nonneg_of_all {s : Shape} {axes : List (Fin s.rank)} (x : IVec s 32)
    (bc : S_.BroadcastsInDim s (![] : Fin 0 → Fin s.rank)) (red : s.ReducesTo axes S_) (h0 : 0 < S_.numel)
    (e : Host.reduce IntOp.andi (cmpi .sge x (broadcastInDim s ![] bc (constantI S_ 32 0#32)))
        (constantI S_ 1 1#1) red h0 ValueIdx.ix0 = 1#1) (i : s.Idx) : 0 ≤ (x i).toInt := by
  have h1 := Host.reduce_andi_all _ _ red h0 _ e i
  change IntOp.cmpi .sge (x i) 0#32 = 1#1 at h1
  have h2 := IntOp.cmpi_sge.1 h1
  rwa [show (0#32 : BitVec 32).toInt = 0 from by decide] at h2

/-- The upper index conjunct: if "all (x < 50000)" (signed) over an array of words is 1, every word is below 50000. -/
private theorem lt_of_all {s : Shape} {axes : List (Fin s.rank)} (x : IVec s 32)
    (bc : S_.BroadcastsInDim s (![] : Fin 0 → Fin s.rank)) (red : s.ReducesTo axes S_) (h0 : 0 < S_.numel)
    (e : Host.reduce IntOp.andi (cmpi .slt x (broadcastInDim s ![] bc (constantI S_ 32 50000#32)))
        (constantI S_ 1 1#1) red h0 ValueIdx.ix0 = 1#1) (i : s.Idx) : (x i).toInt < 50000 := by
  have h1 := Host.reduce_andi_all _ _ red h0 _ e i
  change IntOp.cmpi .slt (x i) 50000#32 = 1#1 at h1
  have h2 := IntOp.cmpi_slt.1 h1
  rwa [show (50000#32 : BitVec 32).toInt = 50000 from by decide] at h2

/-- If the printed precondition is all ones on the eleven argument arrays, then every entry of the node features, of the
    message weights and of the message bias is a real number, and every source index, read signed, is in [0, 50000). -/
theorem decode (a0 : FVec Ideal S50000x128 .f32) (a1 : FVec Ideal S128x128 .f32) (a2 : FVec Ideal S128 .f32)
    (a3 a4 : FVec Ideal S384x128 .f32) (a5 a6 : FVec Ideal S384 .f32) (a7 a8 : FVec Ideal S128 .f32)
    (a9 a10 : IVec S600000 32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
      ∧ (∀ e, 0 ≤ (a9 e).toInt ∧ (a9 e).toInt < 50000) := by
  have h' := congrFun h ValueIdx.ix0
  dsimp only [fn, fn_part1, fn_part2, fn_part3, andi] at h'
  simp only [IntOp.andi_eq_one] at h'
  obtain ⟨⟨⟨⟨⟨⟨⟨⟨⟨⟨h0, h1⟩, h2⟩, -⟩, -⟩, -⟩, -⟩, -⟩, -⟩, hge⟩, hlt⟩ := h'
  exact ⟨finite_of_all a0 _ _ _ h0, finite_of_all a1 _ _ _ h1, finite_of_all a2 _ _ _ h2,
    fun e => ⟨nonneg_of_all a9 _ _ _ hge e, lt_of_all a9 _ _ _ hlt e⟩⟩

end Cert.PreFacts

end
-- ==== Proof.Messages.lean ====
/-
  The two programs' messages agree. The reference projects every gathered source row, adds the bias, and sums the results
  over the edges landing on a node; the kernel sums the gathered rows over those edges first, projects the sum once, and adds
  the bias once per edge (the node's degree). Over finite entries these are one number: the projection is linear, so it
  commutes with the finite sum. Both programs gather with the same start indices, and inside the node table the kernel's
  masked take is the plain gather; both scatter with the same destination indices, so the edges landing on a node are the
  same set on both sides.
-/
import proofs.«412600_j32890859553196_3_alg».proof.Proof.KernelHostReads
import proofs.«412600_j32890859553196_3_alg».proof.Proof.Blocks
import proofs.«412600_j32890859553196_3_alg».proof.Proof.RefRead
import proofs.«412600_j32890859553196_3_alg».proof.Proof.PreFacts

noncomputable section

namespace Cert.Messages

open Cert.KernelIdeal Cert.KernelIdeal.Gen Idealize.ShloMosaic Idealize.ShloMosaic.TcCoe Idealize.SL.Sem
open Idealize.ShloMosaic.ValueIdx
open Cert.KernelHost Cert.KernelBlocks
open Cert.LibScatterRows (land landing)
open Cert.GruLn (row mat vec)

variable (m : (ℓ : Loc nD τ sig) → Buf (Elt Idealize.ShloMosaic.Ideal) ℓ)

/-! ## The arrays the windows stage are the arrays the host code computes -/

theorem agg_bridge (c : Dev nD) : aggA m c = (V m c main_v3 : S50000x128.Idx → EReal) := rfl
theorem deg_bridge (c : Dev nD) : degA m c = (V m c main_v9 : S50000x1.Idx → EReal) := rfl
theorem mean_bridge (c : Dev nD) : meanA m c = (V m c main_v13 : S1x128.Idx → EReal) := rfl
theorem bmsg_bridge (c : Dev nD) : bmsgA m c = (V m c main_v14 : S1x128.Idx → EReal) := rfl

/-- The message weights as launched. -/
abbrev wmsg0 (c : Dev nD) : S128x128.Idx → EReal := m (c, Proc.devRef .tc main_arg1)

theorem wmsg_arg (c : Dev nD) : wmsgA m c = wmsg0 m c := V_main_arg1 m c
theorem nodes_arg (c : Dev nD) : nodesA m c = nodes0 m c := V_main_arg0 m c

/-! ## The reference's gather and scatter are the kernel's -/

/-- The reference gathers the same rows: the same table, the same start indices. -/
theorem ref_gather_eq (a0 : S50000x128.Idx → EReal) (a9 : IVec S600000 32) :
    Cert.ReferenceIdeal.Read.val_main_v6 (F := Idealize.ShloMosaic.Ideal) a0 a9 = gathered a0 a9 := by
  unfold Cert.ReferenceIdeal.Read.val_main_v6 Cert.ReferenceIdeal.Read.val_main_v5 Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c Cert.ReferenceIdeal.Read.val_main_c_0 gathered startIdx
  rfl

/-- The reference's messages at (n, h): the sum, over the edges landing on n, of the projected gathered row plus the bias. -/
theorem ref_msg_apply (a0 : S50000x128.Idx → EReal) (a1 : S128x128.Idx → EReal) (a2 : S128.Idx → EReal)
    (a9 a10 : IVec S600000 32) (n : Fin 50000) (h : Fin 128) :
    Cert.ReferenceIdeal.Read.val_main_v14 (F := Idealize.ShloMosaic.Ideal) a0 a1 a2 a9 a10 (ix2 n h)
      = ∑ e ∈ landing (broadcastInDim S600000x1 ![0] bcast_S600000_S600000x1_0 a10) n,
          ((∑ k : Fin 128, gathered a0 a9 (ix2 e k) * a1 (ix2 h k)) + a2 (ix1 h)) := by
  unfold Cert.ReferenceIdeal.Read.val_main_v14 Cert.ReferenceIdeal.Read.val_main_v13
  rw [Cert.LibScatterRows.host_scatterAdd_rows_apply Cert.ReferenceIdeal.scatter_S50000x128_S600000x1_S600000x128_1_0_0_1 rfl rfl rfl rfl]
  rw [show Cert.ReferenceIdeal.Read.val_main_v12 (F := Idealize.ShloMosaic.Ideal) (ix2 n h) = Ideal.ofBits .f32 0x00000000#32 from rfl, Ideal.ofBits_zero_f32, zero_add]
  refine Finset.sum_congr rfl fun e _ => ?_
  rw [Cert.RefRead.upd_apply, ref_gather_eq]

/-! ## The kernel's messages -/

/-- The kernel's messages at (n, h), with every source index inside the table: the summed gathered rows projected, plus the
    degree times the bias. -/
theorem ker_msg_apply (c : Dev nD) (hsrc : ∀ e, 0 ≤ (src0 m c e).toInt ∧ (src0 m c e).toInt < 50000) (n : Fin 50000) (h : Fin 128) :
    msgRow m c n h
      = (∑ k : Fin 128, (∑ e ∈ landing (dstCol m c) n, gathered (nodes0 m c) (src0 m c) (ix2 e k)) * wmsg0 m c (ix2 h k))
          + (((landing (dstCol m c) n).card : ℝ) : EReal) * bmsg0 m c (ix1 h) := by
  unfold msgRow
  rw [agg_bridge, deg_bridge, bmsg_bridge, wmsg_arg, deg_apply m c n, bmsg_apply m c h]
  refine congrArg (· + (((landing (dstCol m c) n).card : ℝ) : EReal) * bmsg0 m c (ix1 h)) (Finset.sum_congr rfl fun k _ => ?_)
  rw [agg_apply m c n k]
  refine congrArg (· * wmsg0 m c (ix2 h k)) (Finset.sum_congr rfl fun e _ => ?_)
  exact taken_apply m c hsrc e k

/-! ## They agree -/

/-- With the node features, the message weights and the bias finite and every source index inside the node table, the
    kernel's message row of node n is the reference's. -/
theorem msg_eq (c : Dev nD) (hfin0 : ∀ i, ∃ r : ℝ, nodes0 m c i = (r : EReal)) (hfin1 : ∀ i, ∃ r : ℝ, wmsg0 m c i = (r : EReal))
    (hfin2 : ∀ i, ∃ r : ℝ, bmsg0 m c i = (r : EReal))
    (hsrc : ∀ e, 0 ≤ (src0 m c e).toInt ∧ (src0 m c e).toInt < 50000) (n : Fin 50000) (h : Fin 128) :
    msgRow m c n h = Cert.ReferenceIdeal.Read.val_main_v14 (F := Idealize.ShloMosaic.Ideal) (nodes0 m c) (wmsg0 m c) (bmsg0 m c) (src0 m c) (dst0 m c) (ix2 n h) := by
  rw [ker_msg_apply m c hsrc n h, ref_msg_apply]
  choose xr hxr using hfin0
  choose wr hwr using hfin1
  choose br hbr using hfin2
  have hX : ∀ (e : Fin 600000) (k : Fin 128), gathered (nodes0 m c) (src0 m c) (ix2 e k)
      = ((xr (gather_S50000x128_S600000x1_S600000x128_1_0_n_n_0_1_1128.operandIdx (ix2 e k) (startIdx (src0 m c))) : ℝ) : EReal) :=
    fun e k => hxr _
  simp only [hX, hwr, hbr]
  exact (Cert.LibScatterRows.rows_linear (landing (dstCol m c) n)
    (fun e k => xr (gather_S50000x128_S600000x1_S600000x128_1_0_n_n_0_1_1128.operandIdx (ix2 e k) (startIdx (src0 m c))))
    (fun k => wr (ix2 h k)) (br (ix1 h))).symm

/-! ## The kernel's result is the reference's -/

abbrev wih0 (c : Dev nD) : S384x128.Idx → EReal := m (c, Proc.devRef .tc main_arg3)
abbrev whh0 (c : Dev nD) : S384x128.Idx → EReal := m (c, Proc.devRef .tc main_arg4)
abbrev bih0 (c : Dev nD) : S384.Idx → EReal := m (c, Proc.devRef .tc main_arg5)
abbrev bhh0 (c : Dev nD) : S384.Idx → EReal := m (c, Proc.devRef .tc main_arg6)
abbrev gam0 (c : Dev nD) : S128.Idx → EReal := m (c, Proc.devRef .tc main_arg7)
abbrev bet0 (c : Dev nD) : S128.Idx → EReal := m (c, Proc.devRef .tc main_arg8)

variable [Cert.Pre_finite_inputs.Facts]

/-- Under the precondition the function the kernel leaves in its result array is the reference's result, as functions of the
    eleven launch arguments: row by row both are the node update of Spec.lean on the same row, the same mean, the same
    parameters and (by the law above) the same message row. -/
theorem result_eq (c : Dev nD)
    (hpre : Cert.Pre_finite_inputs.fn (F := Idealize.ShloMosaic.Ideal) (nodes0 m c) (wmsg0 m c) (bmsg0 m c) (wih0 m c) (whh0 m c) (bih0 m c) (bhh0 m c)
      (gam0 m c) (bet0 m c) (src0 m c) (dst0 m c) = fun _ => 1#1) :
    result m c = Cert.ReferenceIdeal.Read.val_main_v83 (F := Idealize.ShloMosaic.Ideal) (nodes0 m c) (wmsg0 m c) (bmsg0 m c) (wih0 m c) (whh0 m c) (bih0 m c)
      (bhh0 m c) (gam0 m c) (bet0 m c) (src0 m c) (dst0 m c) := by
  obtain ⟨hf0, hf1, hf2, hsrc⟩ := Cert.PreFacts.decode _ _ _ _ _ _ _ _ _ _ _ hpre
  funext i
  obtain ⟨n, q, rfl⟩ : ∃ (n : Fin 50000) (q : Fin 128), i = ix2 n q := ⟨i 0, i 1, eq_ix2 i⟩
  rw [result_ix2, Cert.RefRead.result_apply]
  unfold resultAt
  exact out_congr (funext fun k => (congrFun (mean_bridge m c) (ix2 0 k)).trans (mean_apply m c k))
    (congrArg (fun A : S384x128.Idx → EReal => mat A) (V_main_arg3 m c))
    (congrArg (fun A : S384x128.Idx → EReal => mat A) (V_main_arg4 m c))
    (congrArg (fun A : S384.Idx → EReal => vec A) (V_main_arg5 m c))
    (congrArg (fun A : S384.Idx → EReal => vec A) (V_main_arg6 m c))
    (congrArg (fun A : S128.Idx → EReal => vec A) (V_main_arg7 m c))
    (congrArg (fun A : S128.Idx → EReal => vec A) (V_main_arg8 m c))
    (congrArg (fun A : S50000x128.Idx → EReal => row A n) (nodes_arg m c))
    (funext fun h => msg_eq m c hf0 hf1 hf2 hsrc n h) q

end Cert.Messages

end
-- ==== Proof.lean ====
/-
  The certificate of one graph-network layer: a fused Pallas kernel against its jnp reference, over the extended reals.

  Both programs gather each edge's source-node row, sum per destination node, add the mean node feature, apply one GRU step
  and a LayerNorm per node, and add the summed messages back. They differ in ONE place: the reference projects every gathered
  row by W_msg and adds b_msg BEFORE summing over the edges that land on a node; the kernel sums the raw gathered rows (and
  counts the edges) on the host, and projects the sum once inside the kernel, adding degree × b_msg. The projection is linear,
  so over finite entries the two agree (Messages.lean, from the law in LibScatterRows.lean); everything after that is the same
  row-wise function of the same row (Spec.lean), which the kernel evaluates 2000 rows at a time (KernelPay.lean,
  Blocks.lean) and the reference on the whole array (RefRead.lean).

  The precondition is that every float input is finite and that every source index lies in [0, 50000): outside that range
  the reference's own indexing is out of range (it clamps) while the kernel's take fills with a non-number, and the two
  programs differ; inside it the take's mask is all ones (KernelHostReads.lean). Finiteness of the node features, of W_msg and
  of b_msg is what the linear law uses.

  The three frames are the generated ones (the reference's is its generated run with the result dropped); nothing was
  rewritten between the kernel and its idealisation, so that conjunct is trivial.
-/
import proofs.«412600_j32890859553196_3_alg».proof.Defs
import proofs.«412600_j32890859553196_3_alg».proof.Proof.Gen.Kernel
import proofs.«412600_j32890859553196_3_alg».proof.Proof.Gen.Kernel.Frame
import proofs.«412600_j32890859553196_3_alg».proof.Proof.Gen.KernelIdeal
import proofs.«412600_j32890859553196_3_alg».proof.Proof.Gen.KernelIdeal.Frame
import proofs.«412600_j32890859553196_3_alg».proof.Proof.Gen.ReferenceIdeal
import proofs.«412600_j32890859553196_3_alg».proof.Proof.Gen.Pre_finite_inputs
import proofs.«412600_j32890859553196_3_alg».proof.Proof.Gen.KernelIdeal.Value
import proofs.«412600_j32890859553196_3_alg».proof.Proof.Gen.ReferenceIdeal.Run
import proofs.«412600_j32890859553196_3_alg».proof.Proof.Gen.ReferenceIdeal.Read
import proofs.«412600_j32890859553196_3_alg».proof.Proof.Messages
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealisation. -/
theorem preserves : Cert.preserves_Kernel_KernelIdeal := trivial

/-- From memories agreeing on the eleven arguments, under the precondition, both programs end with the same result array:
    the kernel's is the row-wise node update of the arrays its launch finds, the reference's its last stage of the arguments,
    and these are one function. -/
theorem algebraic : Cert.algebraic_KernelIdeal_ReferenceIdeal := by
  intro m ρ m' ρ' hpre hagree
  refine ⟨fun c => Cert.KernelBlocks.result m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v83_eq, h0, h1, h2, h3, h4, h5, h6, h7, h8, h9, h10]
  exact (Cert.Messages.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
